-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S1024x100000 : Shape := ⟨2, ![1024, 100000]⟩
abbrev S100000x64 : Shape := ⟨2, ![100000, 64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S1024x100000 : S_.BroadcastsInDim S1024x100000 (![] : Fin 0 → Fin S1024x100000.rank)
  reducesTo_S1024x100000_S_d0_1 : S1024x100000.ReducesTo [0, 1] S_
  bcast_S_S100000x64 : S_.BroadcastsInDim S100000x64 (![] : Fin 0 → Fin S100000x64.rank)
  reducesTo_S100000x64_S_d0_1 : S100000x64.ReducesTo [0, 1] S_

variable [Facts]

def fn {F : FTy → Type} [FloatOps F] (main_arg0 : FVec F S1024x64 .f32) (main_arg1 : FVec F S1024x100000 .f32) (main_arg2 : FVec F S100000x64 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S1024x100000 .f32 := Host.absf main_arg1
  let main_cst_0 : FVec F S_ .f32 := constant S_ .f32 0x7F800000#32
  let main_v5 : FVec F S1024x100000 .f32 := broadcastInDim S1024x100000 ![] bcast_S_S1024x100000 main_cst_0
  let main_v6 : IVec S1024x100000 1 := cmpf .olt main_v4 main_v5
  let main_c_1 : IVec S_ 1 := constantI S_ 1 1#1
  let main_v7 : IVec S_ 1 := (fun x v => Host.reduce IntOp.andi x v reducesTo_S1024x100000_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  main_v13
-- ==== Kernel.lean ====
abbrev S1024x64 : Shape := ⟨2, ![1024, 64]⟩
abbrev S1024x100000 : Shape := ⟨2, ![1024, 100000]⟩
abbrev S100000x64 : Shape := ⟨2, ![100000, 64]⟩
abbrev S1024x1 : Shape := ⟨2, ![1024, 1]⟩
abbrev S1024x4096 : Shape := ⟨2, ![1024, 4096]⟩
abbrev S4096x64 : Shape := ⟨2, ![4096, 64]⟩
abbrev S1024x1696 : Shape := ⟨2, ![1024, 1696]⟩
abbrev S1696x64 : Shape := ⟨2, ![1696, 64]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S1024x64, .f32⟩
  | .hbm, ⟨1, _⟩ => ⟨S1024x100000, .f32⟩
  | .hbm, ⟨2, _⟩ => ⟨S100000x64, .f32⟩
  | .hbm, ⟨3, _⟩ => ⟨S1024x1, .f32⟩
  | .local _ .vmem, ⟨0, _⟩ => ⟨S1024x64, .f32⟩
  | .local _ .vmem, ⟨1, _⟩ => ⟨S1024x4096, .f32⟩
  | .local _ .vmem, ⟨2, _⟩ => ⟨S1024x4096, .f32⟩
  | .local _ .vmem, ⟨3, _⟩ => ⟨S4096x64, .f32⟩
  | .local _ .vmem, ⟨4, _⟩ => ⟨S4096x64, .f32⟩
  | .local _ .vmem, ⟨5, _⟩ => ⟨S1024x1, .f32⟩
  | .local _ .vmem, ⟨6, _⟩ => ⟨S1024x64, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![25], ![false]⟩

def k0_cond3 (i : grid0.Coords) : BitVec 1 :=
  let arg0 : BitVec 32 := BitVec.ofNat 32 (i 0).val
  let c24_i32_2 : BitVec 32 := 24#32
  let v6 : BitVec 1 := Scalar.cmpi .eq arg0 c24_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x4096_S1024x4096_0_0 : ∀ a, (![0, 0] : Fin 2 → Nat) a + S1024x4096.size a ≤ S1024x4096.size a
  h_S1024x4096 : 0 < S1024x4096.numel
  inb_S4096x64_S4096x64_0_0 : ∀ a, (![0, 0] : Fin 2 → Nat) a + S4096x64.size a ≤ S4096x64.size a
  h_S4096x64 : 0 < S4096x64.numel
  inb_S1024x4096_S1024x1696_0_0 : ∀ a, (![0, 0] : Fin 2 → Nat) a + S1024x1696.size a ≤ S1024x4096.size a
  h_S1024x1696 : 0 < S1024x1696.numel
  inb_S4096x64_S1696x64_0_0 : ∀ a, (![0, 0] : Fin 2 → Nat) a + S1696x64.size a ≤ S4096x64.size a
  h_S1696x64 : 0 < S1696x64.numel
  reduces_S1024x64_S1024 : S1024x64.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  dot_S1024x4096_S4096x64_S1024x64_1_0_0_1_n_n_wf : DotDims.WF S1024x4096 S4096x64 S1024x64 [1] [0] [0] [1] [] []
  dot_S1024x1696_S1696x64_S1024x64_1_0_0_1_n_n_wf : DotDims.WF S1024x1696 S1696x64 S1024x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S1024x64.size a
  hwx0_0 : ∀ i : grid0.Coords, EltTy.bits .f32 = 32 ∨ (Rect.block (s := S1024x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x4096.size a < S1024x100000.size a
  hwx0_1 : ∀ i : grid0.Coords, EltTy.bits .f32 = 32 ∨ (Rect.unit (s := S1024x100000) (fun a => cc0_transform_1 i a * S1024x4096.size a) (fun a => (Pipeline.Clip.of (cc0_transform_1 i a) (S1024x4096.size a) (S1024x100000.size a)).extent (S1024x4096.size a)) fun a => Pipeline.Clip.inb (Pipeline.Clip.ok_of (hstart0_1 i a))).WholeWords (EltTy.packing .f32)
  hwxs0_1 : ∀ i : grid0.Coords, EltTy.bits .f32 = 32 ∨ (Rect.unit (s := S1024x4096) (fun _ => 0) (fun a => (Pipeline.Clip.of (cc0_transform_1 i a) (S1024x4096.size a) (S1024x100000.size a)).extent (S1024x4096.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4096x64.size a < S100000x64.size a
  hwx0_2 : ∀ i : grid0.Coords, EltTy.bits .f32 = 32 ∨ (Rect.unit (s := S100000x64) (fun a => cc0_transform_2 i a * S4096x64.size a) (fun a => (Pipeline.Clip.of (cc0_transform_2 i a) (S4096x64.size a) (S100000x64.size a)).extent (S4096x64.size a)) fun a => Pipeline.Clip.inb (Pipeline.Clip.ok_of (hstart0_2 i a))).WholeWords (EltTy.packing .f32)
  hwxs0_2 : ∀ i : grid0.Coords, EltTy.bits .f32 = 32 ∨ (Rect.unit (s := S4096x64) (fun _ => 0) (fun a => (Pipeline.Clip.of (cc0_transform_2 i a) (S4096x64.size a) (S100000x64.size a)).extent (S4096x64.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S1024x1.size a
  hwx0_3 : ∀ i : grid0.Coords, EltTy.bits .f32 = 32 ∨ (Rect.block (s := S1024x1) S1024x1.size (cc0_transform_3 i) (hinb0_3 i)).WholeWords (EltTy.packing .f32)

variable [Facts₀]

def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf
def dot_S1024x1696_S1696x64_S1024x64_1_0_0_1_n_n : DotDims S1024x1696 S1696x64 S1024x64 where
  lhsContracting := [1]
  rhsContracting := [0]
  lhsNonContracting := [0]
  rhsNonContracting := [1]
  lhsBatch := []
  rhsBatch := []
  wf := dot_S1024x1696_S1696x64_S1024x64_1_0_0_1_n_n_wf

abbrev win0_0 : Pipeline.Window sig grid0 :=
  Pipeline.Window.ofSpec (Memref.whole main_arg0) S1024x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1024x4096.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S4096x64.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v0) S1024x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S1024x64 : Shape := ⟨2, ![1024, 64]⟩
abbrev S1024x100000 : Shape := ⟨2, ![1024, 100000]⟩
abbrev S100000x64 : Shape := ⟨2, ![100000, 64]⟩
abbrev S100000x1024 : Shape := ⟨2, ![100000, 1024]⟩
abbrev S_ : Shape := ⟨0, ![]⟩
abbrev S100000 : Shape := ⟨1, ![100000]⟩
abbrev S100000x1 : Shape := ⟨2, ![100000, 1]⟩
abbrev S1024 : Shape := ⟨1, ![1024]⟩
abbrev S1024x1 : Shape := ⟨2, ![1024, 1]⟩

abbrev nBuf : Space → Nat
  | .hbm => 26
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024x100000, .f32⟩
  | .hbm, ⟨2, _⟩ => ⟨S100000x64, .f32⟩
  | .hbm, ⟨3, _⟩ => ⟨S100000x1024, .f32⟩
  | .hbm, ⟨4, _⟩ => ⟨S_, .f32⟩
  | .hbm, ⟨5, _⟩ => ⟨S100000, .f32⟩
  | .hbm, ⟨6, _⟩ => ⟨S100000x1, .f32⟩
  | .hbm, ⟨7, _⟩ => ⟨S_, .f32⟩
  | .hbm, ⟨8, _⟩ => ⟨S100000x1, .f32⟩
  | .hbm, ⟨9, _⟩ => ⟨S100000x1, .f32⟩
  | .hbm, ⟨10, _⟩ => ⟨S100000x1024, .f32⟩
  | .hbm, ⟨11, _⟩ => ⟨S1024x64, .f32⟩
  | .hbm, ⟨12, _⟩ => ⟨S1024x64, .f32⟩
  | .hbm, ⟨13, _⟩ => ⟨S100000x64, .f32⟩
  | .hbm, ⟨14, _⟩ => ⟨S100000x64, .f32⟩
  | .hbm, ⟨15, _⟩ => ⟨S100000x64, .f32⟩
  | .hbm, ⟨16, _⟩ => ⟨S_, .f32⟩
  | .hbm, ⟨17, _⟩ => ⟨S100000x64, .f32⟩
  | .hbm, ⟨18, _⟩ => ⟨S100000x64, .f32⟩
  | .hbm, ⟨19, _⟩ => ⟨S100000x64, .f32⟩
  | .hbm, ⟨20, _⟩ => ⟨S1024x64, .f32⟩
  | .hbm, ⟨21, _⟩ => ⟨S1024x64, .f32⟩
  | .hbm, ⟨22, _⟩ => ⟨S1024x64, .f32⟩
  | .hbm, ⟨23, _⟩ => ⟨S_, .f32⟩
  | .hbm, ⟨24, _⟩ => ⟨S1024, .f32⟩
  | .hbm, ⟨25, _⟩ => ⟨S1024x1, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  transposes_S1024x100000_S100000x1024_1_0 : S1024x100000.Transposes [1, 0] S100000x1024
  reducesTo_S100000x1024_S100000_d1 : S100000x1024.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  reducesTo_S1024x64_S1024_d1 : S1024x64.ReducesTo [1] S1024
  bcast_S1024_S1024x1_0 : S1024.BroadcastsInDim S1024x1 (![0] : Fin 1 → Fin S1024x1.rank)
  dot_S1024x100000_S100000x64_S1024x64_1_0_0_1_n_n_wf : DotDims.WF S1024x100000 S100000x64 S1024x64 [1] [0] [0] [1] [] []
  dot_S100000x1024_S1024x64_S100000x64_1_0_0_1_n_n_wf : DotDims.WF S100000x1024 S1024x64 S100000x64 [1] [0] [0] [1] [] []

variable [Facts₀]

def dot_S1024x100000_S100000x64_S1024x64_1_0_0_1_n_n : DotDims S1024x100000 S100000x64 S1024x64 where
  lhsContracting := [1]
  rhsContracting := [0]
  lhsNonContracting := [0]
  rhsNonContracting := [1]
  lhsBatch := []
  rhsBatch := []
  wf := dot_S1024x100000_S100000x64_S1024x64_1_0_0_1_n_n_wf
def dot_S100000x1024_S1024x64_S100000x64_1_0_0_1_n_n : DotDims S100000x1024 S1024x64 S100000x64 where
  lhsContracting := [1]
  rhsContracting := [0]
  lhsNonContracting := [0]
  rhsNonContracting := [1]
  lhsBatch := []
  rhsBatch := []
  wf := dot_S100000x1024_S1024x64_S100000x64_1_0_0_1_n_n_wf

class Facts : Prop extends Facts₀ where

variable [Facts]
-- ==== Proof.K.Runs.lean ====
/-
  What the three runs of the kernel body share.

  The grid has 25 points along the class axis. The body branches three times on the point k alone:
  "k = 0" (zero the accumulator), "k < 24" (add a full 4096-wide partial product) and "k = 24" (add the
  1696-wide tail product, then form the squared distance). Over the grid exactly one of three patterns
  occurs: (yes, yes, no) at k = 0, (no, yes, no) at 0 < k < 24, (no, no, yes) at k = 24.
-/
import proofs.«124941_g52578989637756_cont_9to1c4b_755_2_alg».proof.Proof.Gen.Kernel.Frame
import proofs.«124941_g52578989637756_cont_9to1c4b_755_2_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The three branch conditions, as the body spells them, and where on the grid each holds -/

/-- "k = 0". -/
abbrev condZero (i : grid0.Coords) : Prop :=
  (Scalar.cmpi .ne (Scalar.extui (Scalar.cmpi .eq (BitVec.ofNat 32 (i 0).val) 0#32)) 0#32) = 1#1
/-- "k < 24". -/
abbrev condFull (i : grid0.Coords) : Prop :=
  (Scalar.cmpi .ne (Scalar.extui (Scalar.cmpi .slt (BitVec.ofNat 32 (i 0).val) 24#32)) 0#32) = 1#1
/-- "k = 24". -/
abbrev condLast (i : grid0.Coords) : Prop := k0_cond3 i = 1#1

theorem hcondZero : ∀ t : Fin cfg0.N, condZero (grid0.coords t) ↔ t.val = 0 :=
  (by decide +kernel : ∀ t : Fin grid0.N, condZero (grid0.coords t) ↔ t.val = 0)
theorem hcondFull : ∀ t : Fin cfg0.N, condFull (grid0.coords t) ↔ t.val < 24 :=
  (by decide +kernel : ∀ t : Fin grid0.N, condFull (grid0.coords t) ↔ t.val < 24)
theorem hcondLast : ∀ t : Fin cfg0.N, condLast (grid0.coords t) ↔ t.val = 24 :=
  (by decide +kernel : ∀ t : Fin grid0.N, condLast (grid0.coords t) ↔ t.val = 24)

/-! ## The result window is touched at the last point only -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, t.val < 24 → cfg0.idle 3 (grid0.coords t) = true := by decide +kernel
theorem noFlush3 : ∀ t : Fin cfg0.N, t.val < 24 → (cfg0.win 3).flush t = false := by decide +kernel
theorem live3 : ∀ t : Fin cfg0.N, t.val = 24 → cfg0.idle 3 (grid0.coords t) = false := by decide +kernel

/-! ## The memrefs the body is called with -/

abbrev ms0 (t : Fin cfg0.N) : Memref sig .tc .vmem S1024x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)
/-- The accumulator: a scratch buffer of the kernel's own, passed beside the windows. -/
abbrev accM : Memref sig .tc .vmem S1024x64 .f32 := Memref.whole cc0_scratch0

/-- The region's invariant with the accumulator spelt as a memref held at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-! ## The two partial loads of the last point -/

/-- The leading 1696 columns of a 1024 × 4096 buffer. -/
abbrev rT : Rect S1024x4096 := Rect.unit (s := S1024x4096) ![0, 0] S1024x1696.size inb_S1024x4096_S1024x1696_0_0
/-- The leading 1696 rows of a 4096 × 64 buffer. -/
abbrev rC : Rect S4096x64 := Rect.unit (s := S4096x64) ![0, 0] S1696x64.size inb_S4096x64_S1696x64_0_0

theorem hz2 : (![0, 0] : Fin 2 → Nat) = fun _ => 0 := funext fun a => by fin_cases a <;> rfl

end Cert.Kernel.Hand

end
-- ==== Proof.K.RunFirst.lean ====
/-
  The body at the first point k = 0: the accumulator, found at anything, is zeroed and then receives the first
  partial product, ending at 0 + T_0 · C_0; every window's buffer is handed back as it was found.
-/
import proofs.«124941_g52578989637756_cont_9to1c4b_755_2_alg».proof.Proof.K.Runs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
theorem runFirst (c : Dev nD) (i : grid0.Coords) (arg1 : Memref sig .tc .vmem S1024x64 .f32) (harg1 : arg1.IsWhole) (arg2 : Memref sig .tc .vmem S1024x4096 .f32) (harg2 : arg2.IsWhole) (arg3 : Memref sig .tc .vmem S4096x64 .f32) (harg3 : arg3.IsWhole) (arg4 : Memref sig .tc .vmem S1024x1 .f32) (harg4 : arg4.IsWhole) (arg5 : Memref sig .tc .vmem S1024x64 .f32) (harg5 : arg5.IsWhole)
    (h1 : condZero i) (h2 : condFull i) (h3 : ¬condLast i)
    (X0 : Vec F S1024x64 .f32) (X1 : Vec F S1024x4096 .f32) (X2 : Vec F S4096x64 .f32) (X3 : Vec F S1024x1 .f32)
    (E : Set ℕ) (K : PUnit → sProp 𝕄) :
    iprop(owns (c : Thread nD τ) arg1 fullShare X0 ∗ owns (c : Thread nD τ) arg2 fullShare X1 ∗ owns (c : Thread nD τ) arg3 fullShare X2
          ∗ owns (c : Thread nD τ) arg4 fullShare X3 ∗ (∃ d, owns (c : Thread nD τ) arg5 fullShare d)
          ∗ (iprop(owns (c : Thread nD τ) arg1 fullShare X0 ∗ owns (c : Thread nD τ) arg2 fullShare X1 ∗ owns (c : Thread nD τ) arg3 fullShare X2
                ∗ owns (c : Thread nD τ) arg4 fullShare X3 ∗ owns (c : Thread nD τ) arg5 fullShare (k0_pay2 (k0_pay1 (F := F)) X1 X2)) -∗ K ⟨⟩))
      ⊢ wp frame (wpE (defs₀ (F := F)) Variants.none c none) E (cc0__center_loss_body i arg1 harg1 arg2 harg2 arg3 harg3 arg4 harg4 arg5 harg5) K := by
  simp only [cc0__center_loss_body_eq_skeleton]; unfold cc0__center_loss_body_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg1.eq_unread hf0; obtain rfl := harg2.eq_unread hf1; obtain rfl := harg3.eq_unread hf2
  obtain rfl := harg4.eq_unread hf3
  sl_exec (disch := first | exact h1 | exact h2 | exact h3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  sl_unfold_words
  -- two stores over the whole accumulator: the later one stands, and the value it added to is the zero fill read back
  rw [View.read_writes_eq_canon _ _ _ (fun y => ⟨_, List.mem_cons.mpr (Or.inl rfl), View.mem_set_unit_zero hz2 inb_S1024x64_S1024x64_0_0 y⟩), View.canon_cons_unit_zero hz2]
  simp only [View.readAt_eq_ld, hf1, hf2, View.ld_unit_zero (S := S1024x4096) hz2, View.ld_unit_zero (S := S4096x64) hz2, View.readCov_unit_zero (S := S1024x64) _ hz2]

end Cert.Kernel.Hand

end
-- ==== Proof.K.RunMid.lean ====
/-
  The body at a middle point 0 < k < 24: the accumulator a, found at the previous point's value, ends at
  a + T_k · C_k, the product of the point's full 1024 × 4096 block of targets and 4096 × 64 block of centers;
  every window's buffer is handed back as it was found.
-/
import proofs.«124941_g52578989637756_cont_9to1c4b_755_2_alg».proof.Proof.K.Runs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
theorem runMid (c : Dev nD) (i : grid0.Coords) (arg1 : Memref sig .tc .vmem S1024x64 .f32) (harg1 : arg1.IsWhole) (arg2 : Memref sig .tc .vmem S1024x4096 .f32) (harg2 : arg2.IsWhole) (arg3 : Memref sig .tc .vmem S4096x64 .f32) (harg3 : arg3.IsWhole) (arg4 : Memref sig .tc .vmem S1024x1 .f32) (harg4 : arg4.IsWhole) (arg5 : Memref sig .tc .vmem S1024x64 .f32) (harg5 : arg5.IsWhole)
    (h1 : ¬condZero i) (h2 : condFull i) (h3 : ¬condLast i)
    (X0 : Vec F S1024x64 .f32) (X1 : Vec F S1024x4096 .f32) (X2 : Vec F S4096x64 .f32) (X3 : Vec F S1024x1 .f32) (xs : Vec F S1024x64 .f32)
    (E : Set ℕ) (K : PUnit → sProp 𝕄) :
    iprop(owns (c : Thread nD τ) arg1 fullShare X0 ∗ owns (c : Thread nD τ) arg2 fullShare X1 ∗ owns (c : Thread nD τ) arg3 fullShare X2
          ∗ owns (c : Thread nD τ) arg4 fullShare X3 ∗ owns (c : Thread nD τ) arg5 fullShare xs
          ∗ (iprop(owns (c : Thread nD τ) arg1 fullShare X0 ∗ owns (c : Thread nD τ) arg2 fullShare X1 ∗ owns (c : Thread nD τ) arg3 fullShare X2
                ∗ owns (c : Thread nD τ) arg4 fullShare X3 ∗ owns (c : Thread nD τ) arg5 fullShare (k0_pay2 xs X1 X2)) -∗ K ⟨⟩))
      ⊢ wp frame (wpE (defs₀ (F := F)) Variants.none c none) E (cc0__center_loss_body i arg1 harg1 arg2 harg2 arg3 harg3 arg4 harg4 arg5 harg5) K := by
  simp only [cc0__center_loss_body_eq_skeleton]; unfold cc0__center_loss_body_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hfs
  sl_exec (disch := first | exact h1 | exact h2 | exact h3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  -- one store over the whole accumulator: it reads back as the stored value, whose three operands are whole loads
  rw [View.read_writes_eq_canon _ _ _ (fun y => ⟨_, List.mem_cons.mpr (Or.inl rfl), View.mem_set_unit_zero hz2 inb_S1024x64_S1024x64_0_0 y⟩), View.canon_unit_zero hz2]
  simp only [View.readAt_eq_ld, hf1, hf2, hfs, View.ld_unit_zero (S := S1024x64) hz2, View.ld_unit_zero (S := S1024x4096) hz2, View.ld_unit_zero (S := S4096x64) hz2]

end Cert.Kernel.Hand

end
-- ==== Proof.K.RunLast.lean ====
/-
  The body at the last point k = 24: only the leading 1696 columns of the targets' buffer and the leading 1696 rows
  of the centers' buffer are read (the class axis ends there), so the accumulator a ends at a + T_24' · C_24' over
  those; the result's buffer then receives, row by row, the sum over the 64 lanes of (x − a)², whatever it held.
-/
import proofs.«124941_g52578989637756_cont_9to1c4b_755_2_alg».proof.Proof.K.Runs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
theorem runLast (c : Dev nD) (i : grid0.Coords) (arg1 : Memref sig .tc .vmem S1024x64 .f32) (harg1 : arg1.IsWhole) (arg2 : Memref sig .tc .vmem S1024x4096 .f32) (harg2 : arg2.IsWhole) (arg3 : Memref sig .tc .vmem S4096x64 .f32) (harg3 : arg3.IsWhole) (arg4 : Memref sig .tc .vmem S1024x1 .f32) (harg4 : arg4.IsWhole) (arg5 : Memref sig .tc .vmem S1024x64 .f32) (harg5 : arg5.IsWhole)
    (h1 : ¬condZero i) (h2 : ¬condFull i) (h3 : condLast i)
    (X0 : Vec F S1024x64 .f32) (X1 : Vec F S1024x4096 .f32) (X2 : Vec F S4096x64 .f32) (X3 : Vec F S1024x1 .f32) (xs : Vec F S1024x64 .f32)
    (E : Set ℕ) (K : PUnit → sProp 𝕄) :
    iprop(owns (c : Thread nD τ) arg1 fullShare X0 ∗ owns (c : Thread nD τ) arg2 fullShare X1 ∗ owns (c : Thread nD τ) arg3 fullShare X2
          ∗ owns (c : Thread nD τ) arg4 fullShare X3 ∗ owns (c : Thread nD τ) arg5 fullShare xs
          ∗ (iprop(owns (c : Thread nD τ) arg1 fullShare X0 ∗ owns (c : Thread nD τ) arg2 fullShare X1 ∗ owns (c : Thread nD τ) arg3 fullShare X2
                ∗ owns (c : Thread nD τ) arg4 fullShare (k0_pay4 X0 (k0_pay3 xs (View.ld X1 rT) (View.ld X2 rC))) ∗ owns (c : Thread nD τ) arg5 fullShare (k0_pay3 xs (View.ld X1 rT) (View.ld X2 rC))) -∗ K ⟨⟩))
      ⊢ wp frame (wpE (defs₀ (F := F)) Variants.none c none) E (cc0__center_loss_body i arg1 harg1 arg2 harg2 arg3 harg3 arg4 harg4 arg5 harg5) K := by
  simp only [cc0__center_loss_body_eq_skeleton]; unfold cc0__center_loss_body_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hfs
  sl_exec (disch := first | exact h1 | exact h2 | exact h3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  sl_unfold_words
  isplitl [H3]
  · iexists _; isplitr
    swap; · iexact H3
    ipureintro
    -- one store over the whole result buffer; its second operand is the accumulator's update read back
    rw [View.read_writes_eq_canon _ _ _ (fun y => ⟨_, List.mem_cons.mpr (Or.inl rfl), View.mem_set_unit_zero hz2 inb_S1024x1_S1024x1_0_0 y⟩), View.canon_unit_zero hz2]
    simp only [View.readAt_eq_ld, hf0, hf1, hf2, hfs, View.ld_unit_zero (S := S1024x64) hz2, View.readCov_unit_zero (S := S1024x64) _ hz2]
  · iexists _; isplitr
    swap; · iexact HS
    ipureintro
    rw [View.read_writes_eq_canon _ _ _ (fun y => ⟨_, List.mem_cons.mpr (Or.inl rfl), View.mem_set_unit_zero hz2 inb_S1024x64_S1024x64_0_0 y⟩), View.canon_unit_zero hz2]
    simp only [View.readAt_eq_ld, hf1, hf2, hfs, View.ld_unit_zero (S := S1024x64) hz2]

end Cert.Kernel.Hand

end
-- ==== Proof.K.Blocks.lean ====
/-
  What the two streamed windows hold.

  At point k the targets' window stages columns 4096·k … of the 1024 × 100000 array and the centers' window rows
  4096·k … of the 100000 × 64 array. For k < 24 the block lies inside the array. At k = 24 it overhangs the end
  (24 · 4096 + 4096 > 100000): only its leading 1696 columns (rows) are transferred, and the rest of the buffer
  holds values nothing names. The body reads exactly the transferred part, so whatever fills the rest is immaterial:
  the contents are stated with the zero word there, and two lemmas per window say the filler does not matter
  wherever the body looks.
-/
import proofs.«124941_g52578989637756_cont_9to1c4b_755_2_alg».proof.Proof.K.Runs
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The argument arrays as the region finds them, at their literal shapes -/

abbrev xArr (c : Dev nD) : Vec F S1024x64 .f32 := V m c main_arg0
abbrev tArr (c : Dev nD) : Vec F S1024x100000 .f32 := V m c main_arg1
abbrev cArr (c : Dev nD) : Vec F S100000x64 .f32 := V m c main_arg2

/-! ## The streamed windows' buffers -/

/-- The targets' buffer at point t: the block's part inside the array, the zero word past the array's end. -/
def tbuf (c : Dev nD) (t : Fin cfg0.N) : Vec F S1024x4096 .f32 :=
  win0_1.fill (grid0.coords t) (fun _ => Scalar.ofBits .f32 0#32) (iblk m c 1 t)

/-- The centers' buffer at point t, likewise. -/
def cbuf (c : Dev nD) (t : Fin cfg0.N) : Vec F S4096x64 .f32 :=
  win0_2.fill (grid0.coords t) (fun _ => Scalar.ofBits .f32 0#32) (iblk m c 2 t)

/-! ## The printed windows over the 25 points -/

/-- The targets' window: the block index is (0, t); the transferred part is 1024 rows by the columns left. -/
private theorem tfacts : ∀ t : Fin cfg0.N,
    win0_1.index t (0 : Fin 2) = 0 ∧ win0_1.index t (1 : Fin 2) = t.val
    ∧ win0_1.xsize (grid0.coords t) (0 : Fin 2) = 1024
    ∧ win0_1.xsize (grid0.coords t) (1 : Fin 2) = min 4096 (100000 - t.val * 4096) :=
  (by decide +kernel : ∀ t : Fin grid0.N, _)

/-- The centers' window: the block index is (t, 0); the transferred part is the rows left by 64 columns. -/
private theorem cfacts : ∀ t : Fin cfg0.N,
    win0_2.index t (0 : Fin 2) = t.val ∧ win0_2.index t (1 : Fin 2) = 0
    ∧ win0_2.xsize (grid0.coords t) (0 : Fin 2) = min 4096 (100000 - t.val * 4096)
    ∧ win0_2.xsize (grid0.coords t) (1 : Fin 2) = 64 :=
  (by decide +kernel : ∀ t : Fin grid0.N, _)

/-- An entry of the targets' buffer inside the array is the array's entry, whatever fills the rest. -/
private theorem tfill_apply (c : Dev nD) (t : Fin cfg0.N) (d : S1024x4096.Idx → Elt F .f32) (p : Fin 1024) (j : Fin 4096)
    (h : t.val * 4096 + j.val < 100000) :
    win0_1.fill (grid0.coords t) d (iblk m c 1 t) (ix2 p j) = tArr m c (ix2 p ⟨t.val * 4096 + j.val, h⟩) := by
  obtain ⟨i0, i1, x0, x1⟩ := tfacts t
  have hm : win0_1.moved (grid0.coords t) (ix2 p j) = true :=
    (win0_1.moved_iff _ _).mpr fun a => by
      match a with
      | ⟨0, _⟩ => show p.val < win0_1.xsize (grid0.coords t) (0 : Fin 2); rw [x0]; exact p.isLt
      | ⟨1, _⟩ => show j.val < win0_1.xsize (grid0.coords t) (1 : Fin 2); rw [x1]; have := j.isLt; omega
  unfold Window.fill
  rw [dif_pos hm]
  unfold iblk
  rw [View.read_apply]
  show V m c main_arg1 (((cfg0.win 1).blk t).view.emb _) = V m c main_arg1 _
  congr 1
  funext a; apply Fin.ext
  match a with
  | ⟨0, _⟩ => show win0_1.index t (0 : Fin 2) * 1024 + 1 * p.val = p.val; rw [i0]; omega
  | ⟨1, _⟩ => show win0_1.index t (1 : Fin 2) * 4096 + 1 * j.val = t.val * 4096 + j.val; rw [i1]; omega

/-- An entry of the centers' buffer inside the array is the array's entry, whatever fills the rest. -/
private theorem cfill_apply (c : Dev nD) (t : Fin cfg0.N) (d : S4096x64.Idx → Elt F .f32) (j : Fin 4096) (q : Fin 64)
    (h : t.val * 4096 + j.val < 100000) :
    win0_2.fill (grid0.coords t) d (iblk m c 2 t) (ix2 j q) = cArr m c (ix2 ⟨t.val * 4096 + j.val, h⟩ q) := by
  obtain ⟨i0, i1, x0, x1⟩ := cfacts t
  have hm : win0_2.moved (grid0.coords t) (ix2 j q) = true :=
    (win0_2.moved_iff _ _).mpr fun a => by
      match a with
      | ⟨0, _⟩ => show j.val < win0_2.xsize (grid0.coords t) (0 : Fin 2); rw [x0]; have := j.isLt; omega
      | ⟨1, _⟩ => show q.val < win0_2.xsize (grid0.coords t) (1 : Fin 2); rw [x1]; exact q.isLt
  unfold Window.fill
  rw [dif_pos hm]
  unfold iblk
  rw [View.read_apply]
  show V m c main_arg2 (((cfg0.win 2).blk t).view.emb _) = V m c main_arg2 _
  congr 1
  funext a; apply Fin.ext
  match a with
  | ⟨0, _⟩ => show win0_2.index t (0 : Fin 2) * 4096 + 1 * j.val = t.val * 4096 + j.val; rw [i0]; omega
  | ⟨1, _⟩ => show win0_2.index t (1 : Fin 2) * 64 + 1 * q.val = q.val; rw [i1]; omega

/-- The x window's block index is (0, 0) at every point. -/
private theorem xfacts : ∀ t : Fin cfg0.N, win0_0.index t (0 : Fin 2) = 0 ∧ win0_0.index t (1 : Fin 2) = 0 :=
  (by decide +kernel : ∀ t : Fin grid0.N, _)

/-- The leading-columns rectangle places (p, j) at (p, j). -/
private theorem rT_idx (p : Fin 1024) (j : Fin 1696) :
    rT.idx (ix2 p j) = ix2 p ⟨j.val, Nat.lt_of_lt_of_le j.isLt (by decide)⟩ := by
  funext a
  apply Fin.ext
  match a with
  | ⟨0, _⟩ => show 0 + 1 * p.val = p.val; omega
  | ⟨1, _⟩ => show 0 + 1 * j.val = j.val; omega

/-- The leading-rows rectangle places (j, q) at (j, q). -/
private theorem rC_idx (j : Fin 1696) (q : Fin 64) :
    rC.idx (ix2 j q) = ix2 ⟨j.val, Nat.lt_of_lt_of_le j.isLt (by decide)⟩ q := by
  funext a
  apply Fin.ext
  match a with
  | ⟨0, _⟩ => show 0 + 1 * j.val = j.val; omega
  | ⟨1, _⟩ => show 0 + 1 * q.val = q.val; omega

/-! ## The filler is immaterial where the body reads -/

/-- Before the last point the block is inside the array: the whole buffer is the block. -/
theorem tfill_full (c : Dev nD) (t : Fin cfg0.N) (ht : t.val < 24) (d : S1024x4096.Idx → Elt F .f32) :
    win0_1.fill (grid0.coords t) d (iblk m c 1 t) = tbuf m c t := by
  funext x
  obtain ⟨p, j, rfl⟩ : ∃ (p : Fin 1024) (j : Fin 4096), x = ix2 p j := ⟨x 0, x 1, eq_ix2 x⟩
  have h : t.val * 4096 + j.val < 100000 := by have := j.isLt; omega
  unfold tbuf
  rw [tfill_apply m c t d p j h, tfill_apply m c t _ p j h]

theorem cfill_full (c : Dev nD) (t : Fin cfg0.N) (ht : t.val < 24) (d : S4096x64.Idx → Elt F .f32) :
    win0_2.fill (grid0.coords t) d (iblk m c 2 t) = cbuf m c t := by
  funext x
  obtain ⟨j, q, rfl⟩ : ∃ (j : Fin 4096) (q : Fin 64), x = ix2 j q := ⟨x 0, x 1, eq_ix2 x⟩
  have h : t.val * 4096 + j.val < 100000 := by have := j.isLt; omega
  unfold cbuf
  rw [cfill_apply m c t d j q h, cfill_apply m c t _ j q h]

/-- At the last point the leading 1696 columns are inside the array. -/
theorem tfill_tail (c : Dev nD) (t : Fin cfg0.N) (ht : t.val = 24) (d : S1024x4096.Idx → Elt F .f32) :
    View.ld (win0_1.fill (grid0.coords t) d (iblk m c 1 t)) rT = View.ld (tbuf m c t) rT := by
  funext x
  obtain ⟨p, j, rfl⟩ : ∃ (p : Fin 1024) (j : Fin 1696), x = ix2 p j := ⟨x 0, x 1, eq_ix2 x⟩
  have hj : j.val < 4096 := Nat.lt_of_lt_of_le j.isLt (by decide)
  have h : t.val * 4096 + (⟨j.val, hj⟩ : Fin 4096).val < 100000 := by
    show t.val * 4096 + j.val < 100000
    have := j.isLt; omega
  show win0_1.fill (grid0.coords t) d (iblk m c 1 t) (rT.idx (ix2 p j)) = tbuf m c t (rT.idx (ix2 p j))
  rw [rT_idx p j]
  unfold tbuf
  rw [tfill_apply m c t d p ⟨j.val, hj⟩ h, tfill_apply m c t _ p ⟨j.val, hj⟩ h]

theorem cfill_tail (c : Dev nD) (t : Fin cfg0.N) (ht : t.val = 24) (d : S4096x64.Idx → Elt F .f32) :
    View.ld (win0_2.fill (grid0.coords t) d (iblk m c 2 t)) rC = View.ld (cbuf m c t) rC := by
  funext x
  obtain ⟨j, q, rfl⟩ : ∃ (j : Fin 1696) (q : Fin 64), x = ix2 j q := ⟨x 0, x 1, eq_ix2 x⟩
  have hj : j.val < 4096 := Nat.lt_of_lt_of_le j.isLt (by decide)
  have h : t.val * 4096 + (⟨j.val, hj⟩ : Fin 4096).val < 100000 := by
    show t.val * 4096 + j.val < 100000
    have := j.isLt; omega
  show win0_2.fill (grid0.coords t) d (iblk m c 2 t) (rC.idx (ix2 j q)) = cbuf m c t (rC.idx (ix2 j q))
  rw [rC_idx j q]
  unfold cbuf
  rw [cfill_apply m c t d ⟨j.val, hj⟩ q h, cfill_apply m c t _ ⟨j.val, hj⟩ q h]

/-! ## The buffers' entries, in terms of the argument arrays -/

/-- The x window's block is the whole array, at every point. -/
theorem xblk_apply (c : Dev nD) (t : Fin cfg0.N) (p : Fin 1024) (e : Fin 64) :
    (iblk m c 0 t : Vec F S1024x64 .f32) (ix2 p e) = xArr m c (ix2 p e) := by
  obtain ⟨i0, i1⟩ := xfacts t
  unfold iblk
  rw [View.read_apply]
  show V m c main_arg0 (((cfg0.win 0).blk t).view.emb _) = V m c main_arg0 _
  congr 1
  funext a; apply Fin.ext
  match a with
  | ⟨0, _⟩ => show win0_0.index t (0 : Fin 2) * 1024 + 1 * p.val = p.val; rw [i0]; omega
  | ⟨1, _⟩ => show win0_0.index t (1 : Fin 2) * 64 + 1 * e.val = e.val; rw [i1]; omega

/-- Entry (p, j) of the targets' buffer at point t is targets (p, 4096·t + j), while that column exists. -/
theorem tbuf_apply (c : Dev nD) (t : Fin cfg0.N) (p : Fin 1024) (j : Fin 4096) (h : t.val * 4096 + j.val < 100000) :
    tbuf m c t (ix2 p j) = tArr m c (ix2 p ⟨t.val * 4096 + j.val, h⟩) := by
  unfold tbuf
  exact tfill_apply m c t _ p j h

/-- Entry (j, q) of the centers' buffer at point t is centers (4096·t + j, q), while that row exists. -/
theorem cbuf_apply (c : Dev nD) (t : Fin cfg0.N) (j : Fin 4096) (q : Fin 64) (h : t.val * 4096 + j.val < 100000) :
    cbuf m c t (ix2 j q) = cArr m c (ix2 ⟨t.val * 4096 + j.val, h⟩ q) := by
  unfold cbuf
  exact cfill_apply m c t _ j q h

/-- The leading-columns load reads the buffer at the same coordinates. -/
theorem ld_rT_apply (X : Vec F S1024x4096 .f32) (p : Fin 1024) (j : Fin 1696) :
    View.ld X rT (ix2 p j) = X (ix2 p ⟨j.val, Nat.lt_of_lt_of_le j.isLt (by decide)⟩) := by
  show X (rT.idx (ix2 p j)) = X _
  rw [rT_idx p j]

/-- The leading-rows load reads the buffer at the same coordinates. -/
theorem ld_rC_apply (X : Vec F S4096x64 .f32) (j : Fin 1696) (q : Fin 64) :
    View.ld X rC (ix2 j q) = X (ix2 ⟨j.val, Nat.lt_of_lt_of_le j.isLt (by decide)⟩ q) := by
  show X (rC.idx (ix2 j q)) = X _
  rw [rC_idx j q]

end Cert.Kernel.Hand

end
-- ==== Proof.K.Data.lean ====
/-
  The proof data of the one pipeline, the body at every point, and the run.

  The accumulator after point n is defined by recursion on n: 0 + T_0 · C_0 after the first point, the previous value plus
  T_n · C_n after a middle point, and the previous value plus the tail product after the last. Before the first point
  the region's invariant says nothing of the accumulator; before any later point it holds the accumulator at the value
  the point before left. The x window's buffer holds x throughout; the two streamed windows' buffers hold their blocks
  (stated on the transferred part only, for they may overhang); the result's buffer is left untouched until the last
  point, where the body fills it, and is written back once.
-/
import proofs.«124941_g52578989637756_cont_9to1c4b_755_2_alg».proof.Proof.K.RunFirst
import proofs.«124941_g52578989637756_cont_9to1c4b_755_2_alg».proof.Proof.K.RunMid
import proofs.«124941_g52578989637756_cont_9to1c4b_755_2_alg».proof.Proof.K.RunLast
import proofs.«124941_g52578989637756_cont_9to1c4b_755_2_alg».proof.Proof.K.Blocks

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator, point by point -/

/-- The accumulator after point n. -/
def accAt (c : Dev nD) : (n : ℕ) → n < cfg0.N → Vec F S1024x64 .f32
  | 0, hn => k0_pay2 (k0_pay1 (F := F)) (tbuf m c ⟨0, hn⟩) (cbuf m c ⟨0, hn⟩)
  | n + 1, hn =>
    if n + 1 < 24 then k0_pay2 (accAt c n (Nat.lt_of_succ_lt hn)) (tbuf m c ⟨n + 1, hn⟩) (cbuf m c ⟨n + 1, hn⟩)
    else k0_pay3 (accAt c n (Nat.lt_of_succ_lt hn)) (View.ld (tbuf m c ⟨n + 1, hn⟩) rT) (View.ld (cbuf m c ⟨n + 1, hn⟩) rC)

theorem accAt_first (c : Dev nD) (t : Fin cfg0.N) (h : t.val = 0) :
    accAt m c t.val t.isLt = k0_pay2 (k0_pay1 (F := F)) (tbuf m c t) (cbuf m c t) := by
  obtain ⟨n, hn⟩ := t
  cases n with
  | zero => rfl
  | succ n => exact absurd h (Nat.succ_ne_zero n)

theorem accAt_mid (c : Dev nD) (t : Fin cfg0.N) (h0 : t.val ≠ 0) (h : t.val < 24) :
    accAt m c t.val t.isLt
      = k0_pay2 (accAt m c (t.val - 1) (Nat.lt_of_le_of_lt (Nat.sub_le _ _) t.isLt)) (tbuf m c t) (cbuf m c t) := by
  obtain ⟨n, hn⟩ := t
  cases n with
  | zero => exact absurd rfl h0
  | succ n => exact (if_pos h).trans rfl

theorem accAt_last (c : Dev nD) (t : Fin cfg0.N) (h : t.val = 24) :
    accAt m c t.val t.isLt
      = k0_pay3 (accAt m c (t.val - 1) (Nat.lt_of_le_of_lt (Nat.sub_le _ _) t.isLt)) (View.ld (tbuf m c t) rT) (View.ld (cbuf m c t) rC) := by
  obtain ⟨n, hn⟩ := t
  cases n with
  | zero => exact absurd h (by intro h'; dsimp only at h'; omega)
  | succ n => exact (if_neg (by dsimp only at h; omega)).trans rfl

/-- What the body stores into the result's buffer (read at the last point only): the squared distance of x and the accumulator. -/
def outAt (c : Dev nD) (t : Fin cfg0.N) : Vec F S1024x1 .f32 := k0_pay4 (iblk m c 0 t) (accAt m c t.val t.isLt)

/-! ## The invariant and the proof data -/

/-- Before position n: nothing named before the first point; afterwards the accumulator at what the point before left. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => tbuf m c t
    | ⟨2, _⟩ => cbuf m c t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = tbuf m c t := by dsimp only [dats]
theorem after2 (c : Dev nD) (t : Fin cfg0.N) : (dats m 0 c).after 2 t = cbuf m c t := by dsimp only [dats]
theorem after3 (c : Dev nD) (t : Fin cfg0.N) : (dats m 0 c).after 3 t = outAt m c t := by dsimp only [dats]

/-! ## What the body finds in the input windows' buffers -/

theorem before0 (c : Dev nD) (t : Fin cfg0.N) (d) : (dats m 0 c).before 0 t d = iblk m c 0 t :=
  before0_0_of m (dats m 0 c) (A_eq m c 0) (after0 m c) t d

theorem before1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq m c 1]

theorem before2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq m c 2]

/-! ## What the obligation asks of each window's buffer after the body -/

theorem leaves0 (c : Dev nD) (t : Fin cfg0.N) :
    (dats m 0 c).leaves 0 t = owns (c : Thread nD τ) (ms0 t) fullShare (iblk m c 0 t) := by
  unfold Dat.leaves; rw [live0 t, after0]

theorem leaves1 (c : Dev nD) (t : Fin cfg0.N) :
    (dats m 0 c).leaves 1 t
      = iprop(∃ d, owns (c : Thread nD τ) (ms1 t) fullShare (win0_1.fill (grid0.coords t) d (win0_1.cut (grid0.coords t) (tbuf m c t)))) := by
  unfold Dat.leaves; rw [live1 t, after1]; rfl

theorem leaves2 (c : Dev nD) (t : Fin cfg0.N) :
    (dats m 0 c).leaves 2 t
      = iprop(∃ d, owns (c : Thread nD τ) (ms2 t) fullShare (win0_2.fill (grid0.coords t) d (win0_2.cut (grid0.coords t) (cbuf m c t)))) := by
  unfold Dat.leaves; rw [live2 t, after2]; rfl

theorem leaves3_idle (c : Dev nD) (t : Fin cfg0.N) (h : t.val < 24) :
    (dats m 0 c).leaves 3 t = iprop(∃ d, owns (c : Thread nD τ) (ms3 t) fullShare ((dats m 0 c).before 3 t d)) :=
  (dats m 0 c).leaves_idle 3 t (idle3 t h) (noFlush3 t h)

theorem leaves3_last (c : Dev nD) (t : Fin cfg0.N) (h : t.val = 24) :
    (dats m 0 c).leaves 3 t = owns (c : Thread nD τ) (ms3 t) fullShare (outAt m c t) := by
  unfold Dat.leaves; rw [live3 t h, after3]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, PhiS_castSucc m c t]
  have hN : t.val < 25 := lt_of_lt_of_eq t.isLt (show cfg0.N = 25 from N_0)
  by_cases hz : t.val = 0
  · -- the first point
    have hlt : t.val < 24 := by omega
    rw [leaves3_idle m c t hlt, PhiS_zero m c _ _ hz, PhiA_eq, accAt_first m c t hz]
    iintro ⟨⟨HS, Hg⟩, Ho, ⟨%d0, H0⟩, ⟨%d1, H1⟩, ⟨%d2, H2⟩, ⟨%d3, H3⟩⟩
    rw [before0 m c t d0, before1 m c t d1, before2 m c t d2, tfill_full m c t hlt d1, cfill_full m c t hlt d2]
    iapply (runFirst (F := F) c (grid0.coords t) (ms0 t) (hs0 t) (ms1 t) (hs1 t) (ms2 t) (hs2 t) (ms3 t) (hs3 t) accM (Memref.isWhole_whole _) ((hcondZero t).mpr hz) ((hcondFull t).mpr hlt) (fun h => by have := (hcondLast t).mp h; omega) (iblk m c 0 t) (tbuf m c t) (cbuf m c t) ((dats m 0 c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]
    · iexists (tbuf m c t); rw [Pipeline.Window.fill_cut]; iexact H1
    isplitl [H2]
    · iexists (cbuf m c t); rw [Pipeline.Window.fill_cut]; iexact H2
    iexists d3; iexact H3
  · by_cases hlt : t.val < 24
    · -- a middle point
      rw [leaves3_idle m c t hlt, PhiS_pos m c _ _ hz, accAt_mid m c t hz hlt]
      iintro ⟨⟨HS, Hg⟩, Ho, ⟨%d0, H0⟩, ⟨%d1, H1⟩, ⟨%d2, H2⟩, ⟨%d3, H3⟩⟩
      rw [before0 m c t d0, before1 m c t d1, before2 m c t d2, tfill_full m c t hlt d1, cfill_full m c t hlt d2]
      iapply (runMid (F := F) c (grid0.coords t) (ms0 t) (hs0 t) (ms1 t) (hs1 t) (ms2 t) (hs2 t) (ms3 t) (hs3 t) accM (Memref.isWhole_whole _) (fun h => hz ((hcondZero t).mp h)) ((hcondFull t).mpr hlt) (fun h => by have := (hcondLast t).mp h; omega) (iblk m c 0 t) (tbuf m c t) (cbuf m c t) ((dats m 0 c).before 3 t d3) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]
      · iexists (tbuf m c t); rw [Pipeline.Window.fill_cut]; iexact H1
      isplitl [H2]
      · iexists (cbuf m c t); rw [Pipeline.Window.fill_cut]; iexact H2
      iexists d3; iexact H3
    · -- the last point
      have h24 : t.val = 24 := by omega
      rw [leaves3_last m c t h24, PhiS_pos m c _ _ hz]
      unfold outAt
      rw [accAt_last m c t h24]
      iintro ⟨⟨HS, Hg⟩, Ho, ⟨%d0, H0⟩, ⟨%d1, H1⟩, ⟨%d2, H2⟩, ⟨%d3, H3⟩⟩
      rw [before0 m c t d0, before1 m c t d1, before2 m c t d2]
      rw [← tfill_tail m c t h24 d1, ← cfill_tail m c t h24 d2]
      iapply (runLast (F := F) c (grid0.coords t) (ms0 t) (hs0 t) (ms1 t) (hs1 t) (ms2 t) (hs2 t) (ms3 t) (hs3 t) accM (Memref.isWhole_whole _) (fun h => hz ((hcondZero t).mp h)) (fun h => hlt ((hcondFull t).mp h)) ((hcondLast t).mpr h24) (iblk m c 0 t) (win0_1.fill (grid0.coords t) d1 (iblk m c 1 t)) (win0_2.fill (grid0.coords t) d2 (iblk m c 2 t)) ((dats m 0 c).before 3 t d3) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]
      · iexists d1; unfold tbuf; rw [Pipeline.Window.cut_fill]; iexact H1
      isplitl [H2]
      · iexists d2; unfold cbuf; rw [Pipeline.Window.cut_fill]; iexact H2
      iexact H3

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega), PhiA_eq]
  iintro ⟨HS, Hg⟩
  isplitl [HS]
  · iexists _; iexact HS
  iexact Hg

set_option backward.isDefEq.respectTransparency.types false in
/-- Every weakly fair execution of the program terminates, faulting nowhere, with every array of the pipeline at what the
    proof data compute and every other buffer as it was. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The frame: the program runs to the end and its three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KI.Runs.lean ====
/-
  What the three runs of the kernel body share.

  The grid has 25 points along the class axis. The body branches three times on the point k alone:
  "k = 0" (zero the accumulator), "k < 24" (add a full 4096-wide partial product) and "k = 24" (add the
  1696-wide tail product, then form the squared distance). Over the grid exactly one of three patterns
  occurs: (yes, yes, no) at k = 0, (no, yes, no) at 0 < k < 24, (no, no, yes) at k = 24.
-/
import proofs.«124941_g52578989637756_cont_9to1c4b_755_2_alg».proof.Proof.Gen.KernelIdeal.Frame
import proofs.«124941_g52578989637756_cont_9to1c4b_755_2_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The three branch conditions, as the body spells them, and where on the grid each holds -/

/-- "k = 0". -/
abbrev condZero (i : grid0.Coords) : Prop :=
  (Scalar.cmpi .ne (Scalar.extui (Scalar.cmpi .eq (BitVec.ofNat 32 (i 0).val) 0#32)) 0#32) = 1#1
/-- "k < 24". -/
abbrev condFull (i : grid0.Coords) : Prop :=
  (Scalar.cmpi .ne (Scalar.extui (Scalar.cmpi .slt (BitVec.ofNat 32 (i 0).val) 24#32)) 0#32) = 1#1
/-- "k = 24". -/
abbrev condLast (i : grid0.Coords) : Prop := k0_cond3 i = 1#1

theorem hcondZero : ∀ t : Fin cfg0.N, condZero (grid0.coords t) ↔ t.val = 0 :=
  (by decide +kernel : ∀ t : Fin grid0.N, condZero (grid0.coords t) ↔ t.val = 0)
theorem hcondFull : ∀ t : Fin cfg0.N, condFull (grid0.coords t) ↔ t.val < 24 :=
  (by decide +kernel : ∀ t : Fin grid0.N, condFull (grid0.coords t) ↔ t.val < 24)
theorem hcondLast : ∀ t : Fin cfg0.N, condLast (grid0.coords t) ↔ t.val = 24 :=
  (by decide +kernel : ∀ t : Fin grid0.N, condLast (grid0.coords t) ↔ t.val = 24)

/-! ## The result window is touched at the last point only -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, t.val < 24 → cfg0.idle 3 (grid0.coords t) = true := by decide +kernel
theorem noFlush3 : ∀ t : Fin cfg0.N, t.val < 24 → (cfg0.win 3).flush t = false := by decide +kernel
theorem live3 : ∀ t : Fin cfg0.N, t.val = 24 → cfg0.idle 3 (grid0.coords t) = false := by decide +kernel

/-! ## The memrefs the body is called with -/

abbrev ms0 (t : Fin cfg0.N) : Memref sig .tc .vmem S1024x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)
/-- The accumulator: a scratch buffer of the kernel's own, passed beside the windows. -/
abbrev accM : Memref sig .tc .vmem S1024x64 .f32 := Memref.whole cc0_scratch0

/-- The region's invariant with the accumulator spelt as a memref held at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-! ## The two partial loads of the last point -/

/-- The leading 1696 columns of a 1024 × 4096 buffer. -/
abbrev rT : Rect S1024x4096 := Rect.unit (s := S1024x4096) ![0, 0] S1024x1696.size inb_S1024x4096_S1024x1696_0_0
/-- The leading 1696 rows of a 4096 × 64 buffer. -/
abbrev rC : Rect S4096x64 := Rect.unit (s := S4096x64) ![0, 0] S1696x64.size inb_S4096x64_S1696x64_0_0

theorem hz2 : (![0, 0] : Fin 2 → Nat) = fun _ => 0 := funext fun a => by fin_cases a <;> rfl

end Cert.KernelIdeal.Hand

end
-- ==== Proof.KI.RunFirst.lean ====
/-
  The body at the first point k = 0: the accumulator, found at anything, is zeroed and then receives the first
  partial product, ending at 0 + T_0 · C_0; every window's buffer is handed back as it was found.
-/
import proofs.«124941_g52578989637756_cont_9to1c4b_755_2_alg».proof.Proof.KI.Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
theorem runFirst (c : Dev nD) (i : grid0.Coords) (arg1 : Memref sig .tc .vmem S1024x64 .f32) (harg1 : arg1.IsWhole) (arg2 : Memref sig .tc .vmem S1024x4096 .f32) (harg2 : arg2.IsWhole) (arg3 : Memref sig .tc .vmem S4096x64 .f32) (harg3 : arg3.IsWhole) (arg4 : Memref sig .tc .vmem S1024x1 .f32) (harg4 : arg4.IsWhole) (arg5 : Memref sig .tc .vmem S1024x64 .f32) (harg5 : arg5.IsWhole)
    (h1 : condZero i) (h2 : condFull i) (h3 : ¬condLast i)
    (X0 : Vec F S1024x64 .f32) (X1 : Vec F S1024x4096 .f32) (X2 : Vec F S4096x64 .f32) (X3 : Vec F S1024x1 .f32)
    (E : Set ℕ) (K : PUnit → sProp 𝕄) :
    iprop(owns (c : Thread nD τ) arg1 fullShare X0 ∗ owns (c : Thread nD τ) arg2 fullShare X1 ∗ owns (c : Thread nD τ) arg3 fullShare X2
          ∗ owns (c : Thread nD τ) arg4 fullShare X3 ∗ (∃ d, owns (c : Thread nD τ) arg5 fullShare d)
          ∗ (iprop(owns (c : Thread nD τ) arg1 fullShare X0 ∗ owns (c : Thread nD τ) arg2 fullShare X1 ∗ owns (c : Thread nD τ) arg3 fullShare X2
                ∗ owns (c : Thread nD τ) arg4 fullShare X3 ∗ owns (c : Thread nD τ) arg5 fullShare (k0_pay2 (k0_pay1 (F := F)) X1 X2)) -∗ K ⟨⟩))
      ⊢ wp frame (wpE (defs₀ (F := F)) Variants.none c none) E (cc0__center_loss_body i arg1 harg1 arg2 harg2 arg3 harg3 arg4 harg4 arg5 harg5) K := by
  simp only [cc0__center_loss_body_eq_skeleton]; unfold cc0__center_loss_body_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg1.eq_unread hf0; obtain rfl := harg2.eq_unread hf1; obtain rfl := harg3.eq_unread hf2
  obtain rfl := harg4.eq_unread hf3
  sl_exec (disch := first | exact h1 | exact h2 | exact h3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  sl_unfold_words
  -- two stores over the whole accumulator: the later one stands, and the value it added to is the zero fill read back
  rw [View.read_writes_eq_canon _ _ _ (fun y => ⟨_, List.mem_cons.mpr (Or.inl rfl), View.mem_set_unit_zero hz2 inb_S1024x64_S1024x64_0_0 y⟩), View.canon_cons_unit_zero hz2]
  simp only [View.readAt_eq_ld, hf1, hf2, View.ld_unit_zero (S := S1024x4096) hz2, View.ld_unit_zero (S := S4096x64) hz2, View.readCov_unit_zero (S := S1024x64) _ hz2]

end Cert.KernelIdeal.Hand

end
-- ==== Proof.KI.RunMid.lean ====
/-
  The body at a middle point 0 < k < 24: the accumulator a, found at the previous point's value, ends at
  a + T_k · C_k, the product of the point's full 1024 × 4096 block of targets and 4096 × 64 block of centers;
  every window's buffer is handed back as it was found.
-/
import proofs.«124941_g52578989637756_cont_9to1c4b_755_2_alg».proof.Proof.KI.Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
theorem runMid (c : Dev nD) (i : grid0.Coords) (arg1 : Memref sig .tc .vmem S1024x64 .f32) (harg1 : arg1.IsWhole) (arg2 : Memref sig .tc .vmem S1024x4096 .f32) (harg2 : arg2.IsWhole) (arg3 : Memref sig .tc .vmem S4096x64 .f32) (harg3 : arg3.IsWhole) (arg4 : Memref sig .tc .vmem S1024x1 .f32) (harg4 : arg4.IsWhole) (arg5 : Memref sig .tc .vmem S1024x64 .f32) (harg5 : arg5.IsWhole)
    (h1 : ¬condZero i) (h2 : condFull i) (h3 : ¬condLast i)
    (X0 : Vec F S1024x64 .f32) (X1 : Vec F S1024x4096 .f32) (X2 : Vec F S4096x64 .f32) (X3 : Vec F S1024x1 .f32) (xs : Vec F S1024x64 .f32)
    (E : Set ℕ) (K : PUnit → sProp 𝕄) :
    iprop(owns (c : Thread nD τ) arg1 fullShare X0 ∗ owns (c : Thread nD τ) arg2 fullShare X1 ∗ owns (c : Thread nD τ) arg3 fullShare X2
          ∗ owns (c : Thread nD τ) arg4 fullShare X3 ∗ owns (c : Thread nD τ) arg5 fullShare xs
          ∗ (iprop(owns (c : Thread nD τ) arg1 fullShare X0 ∗ owns (c : Thread nD τ) arg2 fullShare X1 ∗ owns (c : Thread nD τ) arg3 fullShare X2
                ∗ owns (c : Thread nD τ) arg4 fullShare X3 ∗ owns (c : Thread nD τ) arg5 fullShare (k0_pay2 xs X1 X2)) -∗ K ⟨⟩))
      ⊢ wp frame (wpE (defs₀ (F := F)) Variants.none c none) E (cc0__center_loss_body i arg1 harg1 arg2 harg2 arg3 harg3 arg4 harg4 arg5 harg5) K := by
  simp only [cc0__center_loss_body_eq_skeleton]; unfold cc0__center_loss_body_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hfs
  sl_exec (disch := first | exact h1 | exact h2 | exact h3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  -- one store over the whole accumulator: it reads back as the stored value, whose three operands are whole loads
  rw [View.read_writes_eq_canon _ _ _ (fun y => ⟨_, List.mem_cons.mpr (Or.inl rfl), View.mem_set_unit_zero hz2 inb_S1024x64_S1024x64_0_0 y⟩), View.canon_unit_zero hz2]
  simp only [View.readAt_eq_ld, hf1, hf2, hfs, View.ld_unit_zero (S := S1024x64) hz2, View.ld_unit_zero (S := S1024x4096) hz2, View.ld_unit_zero (S := S4096x64) hz2]

end Cert.KernelIdeal.Hand

end
-- ==== Proof.KI.RunLast.lean ====
/-
  The body at the last point k = 24: only the leading 1696 columns of the targets' buffer and the leading 1696 rows
  of the centers' buffer are read (the class axis ends there), so the accumulator a ends at a + T_24' · C_24' over
  those; the result's buffer then receives, row by row, the sum over the 64 lanes of (x − a)², whatever it held.
-/
import proofs.«124941_g52578989637756_cont_9to1c4b_755_2_alg».proof.Proof.KI.Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
theorem runLast (c : Dev nD) (i : grid0.Coords) (arg1 : Memref sig .tc .vmem S1024x64 .f32) (harg1 : arg1.IsWhole) (arg2 : Memref sig .tc .vmem S1024x4096 .f32) (harg2 : arg2.IsWhole) (arg3 : Memref sig .tc .vmem S4096x64 .f32) (harg3 : arg3.IsWhole) (arg4 : Memref sig .tc .vmem S1024x1 .f32) (harg4 : arg4.IsWhole) (arg5 : Memref sig .tc .vmem S1024x64 .f32) (harg5 : arg5.IsWhole)
    (h1 : ¬condZero i) (h2 : ¬condFull i) (h3 : condLast i)
    (X0 : Vec F S1024x64 .f32) (X1 : Vec F S1024x4096 .f32) (X2 : Vec F S4096x64 .f32) (X3 : Vec F S1024x1 .f32) (xs : Vec F S1024x64 .f32)
    (E : Set ℕ) (K : PUnit → sProp 𝕄) :
    iprop(owns (c : Thread nD τ) arg1 fullShare X0 ∗ owns (c : Thread nD τ) arg2 fullShare X1 ∗ owns (c : Thread nD τ) arg3 fullShare X2
          ∗ owns (c : Thread nD τ) arg4 fullShare X3 ∗ owns (c : Thread nD τ) arg5 fullShare xs
          ∗ (iprop(owns (c : Thread nD τ) arg1 fullShare X0 ∗ owns (c : Thread nD τ) arg2 fullShare X1 ∗ owns (c : Thread nD τ) arg3 fullShare X2
                ∗ owns (c : Thread nD τ) arg4 fullShare (k0_pay4 X0 (k0_pay3 xs (View.ld X1 rT) (View.ld X2 rC))) ∗ owns (c : Thread nD τ) arg5 fullShare (k0_pay3 xs (View.ld X1 rT) (View.ld X2 rC))) -∗ K ⟨⟩))
      ⊢ wp frame (wpE (defs₀ (F := F)) Variants.none c none) E (cc0__center_loss_body i arg1 harg1 arg2 harg2 arg3 harg3 arg4 harg4 arg5 harg5) K := by
  simp only [cc0__center_loss_body_eq_skeleton]; unfold cc0__center_loss_body_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hfs
  sl_exec (disch := first | exact h1 | exact h2 | exact h3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  sl_unfold_words
  isplitl [H3]
  · iexists _; isplitr
    swap; · iexact H3
    ipureintro
    -- one store over the whole result buffer; its second operand is the accumulator's update read back
    rw [View.read_writes_eq_canon _ _ _ (fun y => ⟨_, List.mem_cons.mpr (Or.inl rfl), View.mem_set_unit_zero hz2 inb_S1024x1_S1024x1_0_0 y⟩), View.canon_unit_zero hz2]
    simp only [View.readAt_eq_ld, hf0, hf1, hf2, hfs, View.ld_unit_zero (S := S1024x64) hz2, View.readCov_unit_zero (S := S1024x64) _ hz2]
  · iexists _; isplitr
    swap; · iexact HS
    ipureintro
    rw [View.read_writes_eq_canon _ _ _ (fun y => ⟨_, List.mem_cons.mpr (Or.inl rfl), View.mem_set_unit_zero hz2 inb_S1024x64_S1024x64_0_0 y⟩), View.canon_unit_zero hz2]
    simp only [View.readAt_eq_ld, hf1, hf2, hfs, View.ld_unit_zero (S := S1024x64) hz2]

end Cert.KernelIdeal.Hand

end
-- ==== Proof.KI.Blocks.lean ====
/-
  What the two streamed windows hold.

  At point k the targets' window stages columns 4096·k … of the 1024 × 100000 array and the centers' window rows
  4096·k … of the 100000 × 64 array. For k < 24 the block lies inside the array. At k = 24 it overhangs the end
  (24 · 4096 + 4096 > 100000): only its leading 1696 columns (rows) are transferred, and the rest of the buffer
  holds values nothing names. The body reads exactly the transferred part, so whatever fills the rest is immaterial:
  the contents are stated with the zero word there, and two lemmas per window say the filler does not matter
  wherever the body looks.
-/
import proofs.«124941_g52578989637756_cont_9to1c4b_755_2_alg».proof.Proof.KI.Runs
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The argument arrays as the region finds them, at their literal shapes -/

abbrev xArr (c : Dev nD) : Vec F S1024x64 .f32 := V m c main_arg0
abbrev tArr (c : Dev nD) : Vec F S1024x100000 .f32 := V m c main_arg1
abbrev cArr (c : Dev nD) : Vec F S100000x64 .f32 := V m c main_arg2

/-! ## The streamed windows' buffers -/

/-- The targets' buffer at point t: the block's part inside the array, the zero word past the array's end. -/
def tbuf (c : Dev nD) (t : Fin cfg0.N) : Vec F S1024x4096 .f32 :=
  win0_1.fill (grid0.coords t) (fun _ => Scalar.ofBits .f32 0#32) (iblk m c 1 t)

/-- The centers' buffer at point t, likewise. -/
def cbuf (c : Dev nD) (t : Fin cfg0.N) : Vec F S4096x64 .f32 :=
  win0_2.fill (grid0.coords t) (fun _ => Scalar.ofBits .f32 0#32) (iblk m c 2 t)

/-! ## The printed windows over the 25 points -/

/-- The targets' window: the block index is (0, t); the transferred part is 1024 rows by the columns left. -/
private theorem tfacts : ∀ t : Fin cfg0.N,
    win0_1.index t (0 : Fin 2) = 0 ∧ win0_1.index t (1 : Fin 2) = t.val
    ∧ win0_1.xsize (grid0.coords t) (0 : Fin 2) = 1024
    ∧ win0_1.xsize (grid0.coords t) (1 : Fin 2) = min 4096 (100000 - t.val * 4096) :=
  (by decide +kernel : ∀ t : Fin grid0.N, _)

/-- The centers' window: the block index is (t, 0); the transferred part is the rows left by 64 columns. -/
private theorem cfacts : ∀ t : Fin cfg0.N,
    win0_2.index t (0 : Fin 2) = t.val ∧ win0_2.index t (1 : Fin 2) = 0
    ∧ win0_2.xsize (grid0.coords t) (0 : Fin 2) = min 4096 (100000 - t.val * 4096)
    ∧ win0_2.xsize (grid0.coords t) (1 : Fin 2) = 64 :=
  (by decide +kernel : ∀ t : Fin grid0.N, _)

/-- An entry of the targets' buffer inside the array is the array's entry, whatever fills the rest. -/
private theorem tfill_apply (c : Dev nD) (t : Fin cfg0.N) (d : S1024x4096.Idx → Elt F .f32) (p : Fin 1024) (j : Fin 4096)
    (h : t.val * 4096 + j.val < 100000) :
    win0_1.fill (grid0.coords t) d (iblk m c 1 t) (ix2 p j) = tArr m c (ix2 p ⟨t.val * 4096 + j.val, h⟩) := by
  obtain ⟨i0, i1, x0, x1⟩ := tfacts t
  have hm : win0_1.moved (grid0.coords t) (ix2 p j) = true :=
    (win0_1.moved_iff _ _).mpr fun a => by
      match a with
      | ⟨0, _⟩ => show p.val < win0_1.xsize (grid0.coords t) (0 : Fin 2); rw [x0]; exact p.isLt
      | ⟨1, _⟩ => show j.val < win0_1.xsize (grid0.coords t) (1 : Fin 2); rw [x1]; have := j.isLt; omega
  unfold Window.fill
  rw [dif_pos hm]
  unfold iblk
  rw [View.read_apply]
  show V m c main_arg1 (((cfg0.win 1).blk t).view.emb _) = V m c main_arg1 _
  congr 1
  funext a; apply Fin.ext
  match a with
  | ⟨0, _⟩ => show win0_1.index t (0 : Fin 2) * 1024 + 1 * p.val = p.val; rw [i0]; omega
  | ⟨1, _⟩ => show win0_1.index t (1 : Fin 2) * 4096 + 1 * j.val = t.val * 4096 + j.val; rw [i1]; omega

/-- An entry of the centers' buffer inside the array is the array's entry, whatever fills the rest. -/
private theorem cfill_apply (c : Dev nD) (t : Fin cfg0.N) (d : S4096x64.Idx → Elt F .f32) (j : Fin 4096) (q : Fin 64)
    (h : t.val * 4096 + j.val < 100000) :
    win0_2.fill (grid0.coords t) d (iblk m c 2 t) (ix2 j q) = cArr m c (ix2 ⟨t.val * 4096 + j.val, h⟩ q) := by
  obtain ⟨i0, i1, x0, x1⟩ := cfacts t
  have hm : win0_2.moved (grid0.coords t) (ix2 j q) = true :=
    (win0_2.moved_iff _ _).mpr fun a => by
      match a with
      | ⟨0, _⟩ => show j.val < win0_2.xsize (grid0.coords t) (0 : Fin 2); rw [x0]; have := j.isLt; omega
      | ⟨1, _⟩ => show q.val < win0_2.xsize (grid0.coords t) (1 : Fin 2); rw [x1]; exact q.isLt
  unfold Window.fill
  rw [dif_pos hm]
  unfold iblk
  rw [View.read_apply]
  show V m c main_arg2 (((cfg0.win 2).blk t).view.emb _) = V m c main_arg2 _
  congr 1
  funext a; apply Fin.ext
  match a with
  | ⟨0, _⟩ => show win0_2.index t (0 : Fin 2) * 4096 + 1 * j.val = t.val * 4096 + j.val; rw [i0]; omega
  | ⟨1, _⟩ => show win0_2.index t (1 : Fin 2) * 64 + 1 * q.val = q.val; rw [i1]; omega

/-- The x window's block index is (0, 0) at every point. -/
private theorem xfacts : ∀ t : Fin cfg0.N, win0_0.index t (0 : Fin 2) = 0 ∧ win0_0.index t (1 : Fin 2) = 0 :=
  (by decide +kernel : ∀ t : Fin grid0.N, _)

/-- The leading-columns rectangle places (p, j) at (p, j). -/
private theorem rT_idx (p : Fin 1024) (j : Fin 1696) :
    rT.idx (ix2 p j) = ix2 p ⟨j.val, Nat.lt_of_lt_of_le j.isLt (by decide)⟩ := by
  funext a
  apply Fin.ext
  match a with
  | ⟨0, _⟩ => show 0 + 1 * p.val = p.val; omega
  | ⟨1, _⟩ => show 0 + 1 * j.val = j.val; omega

/-- The leading-rows rectangle places (j, q) at (j, q). -/
private theorem rC_idx (j : Fin 1696) (q : Fin 64) :
    rC.idx (ix2 j q) = ix2 ⟨j.val, Nat.lt_of_lt_of_le j.isLt (by decide)⟩ q := by
  funext a
  apply Fin.ext
  match a with
  | ⟨0, _⟩ => show 0 + 1 * j.val = j.val; omega
  | ⟨1, _⟩ => show 0 + 1 * q.val = q.val; omega

/-! ## The filler is immaterial where the body reads -/

/-- Before the last point the block is inside the array: the whole buffer is the block. -/
theorem tfill_full (c : Dev nD) (t : Fin cfg0.N) (ht : t.val < 24) (d : S1024x4096.Idx → Elt F .f32) :
    win0_1.fill (grid0.coords t) d (iblk m c 1 t) = tbuf m c t := by
  funext x
  obtain ⟨p, j, rfl⟩ : ∃ (p : Fin 1024) (j : Fin 4096), x = ix2 p j := ⟨x 0, x 1, eq_ix2 x⟩
  have h : t.val * 4096 + j.val < 100000 := by have := j.isLt; omega
  unfold tbuf
  rw [tfill_apply m c t d p j h, tfill_apply m c t _ p j h]

theorem cfill_full (c : Dev nD) (t : Fin cfg0.N) (ht : t.val < 24) (d : S4096x64.Idx → Elt F .f32) :
    win0_2.fill (grid0.coords t) d (iblk m c 2 t) = cbuf m c t := by
  funext x
  obtain ⟨j, q, rfl⟩ : ∃ (j : Fin 4096) (q : Fin 64), x = ix2 j q := ⟨x 0, x 1, eq_ix2 x⟩
  have h : t.val * 4096 + j.val < 100000 := by have := j.isLt; omega
  unfold cbuf
  rw [cfill_apply m c t d j q h, cfill_apply m c t _ j q h]

/-- At the last point the leading 1696 columns are inside the array. -/
theorem tfill_tail (c : Dev nD) (t : Fin cfg0.N) (ht : t.val = 24) (d : S1024x4096.Idx → Elt F .f32) :
    View.ld (win0_1.fill (grid0.coords t) d (iblk m c 1 t)) rT = View.ld (tbuf m c t) rT := by
  funext x
  obtain ⟨p, j, rfl⟩ : ∃ (p : Fin 1024) (j : Fin 1696), x = ix2 p j := ⟨x 0, x 1, eq_ix2 x⟩
  have hj : j.val < 4096 := Nat.lt_of_lt_of_le j.isLt (by decide)
  have h : t.val * 4096 + (⟨j.val, hj⟩ : Fin 4096).val < 100000 := by
    show t.val * 4096 + j.val < 100000
    have := j.isLt; omega
  show win0_1.fill (grid0.coords t) d (iblk m c 1 t) (rT.idx (ix2 p j)) = tbuf m c t (rT.idx (ix2 p j))
  rw [rT_idx p j]
  unfold tbuf
  rw [tfill_apply m c t d p ⟨j.val, hj⟩ h, tfill_apply m c t _ p ⟨j.val, hj⟩ h]

theorem cfill_tail (c : Dev nD) (t : Fin cfg0.N) (ht : t.val = 24) (d : S4096x64.Idx → Elt F .f32) :
    View.ld (win0_2.fill (grid0.coords t) d (iblk m c 2 t)) rC = View.ld (cbuf m c t) rC := by
  funext x
  obtain ⟨j, q, rfl⟩ : ∃ (j : Fin 1696) (q : Fin 64), x = ix2 j q := ⟨x 0, x 1, eq_ix2 x⟩
  have hj : j.val < 4096 := Nat.lt_of_lt_of_le j.isLt (by decide)
  have h : t.val * 4096 + (⟨j.val, hj⟩ : Fin 4096).val < 100000 := by
    show t.val * 4096 + j.val < 100000
    have := j.isLt; omega
  show win0_2.fill (grid0.coords t) d (iblk m c 2 t) (rC.idx (ix2 j q)) = cbuf m c t (rC.idx (ix2 j q))
  rw [rC_idx j q]
  unfold cbuf
  rw [cfill_apply m c t d ⟨j.val, hj⟩ q h, cfill_apply m c t _ ⟨j.val, hj⟩ q h]

/-! ## The buffers' entries, in terms of the argument arrays -/

/-- The x window's block is the whole array, at every point. -/
theorem xblk_apply (c : Dev nD) (t : Fin cfg0.N) (p : Fin 1024) (e : Fin 64) :
    (iblk m c 0 t : Vec F S1024x64 .f32) (ix2 p e) = xArr m c (ix2 p e) := by
  obtain ⟨i0, i1⟩ := xfacts t
  unfold iblk
  rw [View.read_apply]
  show V m c main_arg0 (((cfg0.win 0).blk t).view.emb _) = V m c main_arg0 _
  congr 1
  funext a; apply Fin.ext
  match a with
  | ⟨0, _⟩ => show win0_0.index t (0 : Fin 2) * 1024 + 1 * p.val = p.val; rw [i0]; omega
  | ⟨1, _⟩ => show win0_0.index t (1 : Fin 2) * 64 + 1 * e.val = e.val; rw [i1]; omega

/-- Entry (p, j) of the targets' buffer at point t is targets (p, 4096·t + j), while that column exists. -/
theorem tbuf_apply (c : Dev nD) (t : Fin cfg0.N) (p : Fin 1024) (j : Fin 4096) (h : t.val * 4096 + j.val < 100000) :
    tbuf m c t (ix2 p j) = tArr m c (ix2 p ⟨t.val * 4096 + j.val, h⟩) := by
  unfold tbuf
  exact tfill_apply m c t _ p j h

/-- Entry (j, q) of the centers' buffer at point t is centers (4096·t + j, q), while that row exists. -/
theorem cbuf_apply (c : Dev nD) (t : Fin cfg0.N) (j : Fin 4096) (q : Fin 64) (h : t.val * 4096 + j.val < 100000) :
    cbuf m c t (ix2 j q) = cArr m c (ix2 ⟨t.val * 4096 + j.val, h⟩ q) := by
  unfold cbuf
  exact cfill_apply m c t _ j q h

/-- The leading-columns load reads the buffer at the same coordinates. -/
theorem ld_rT_apply (X : Vec F S1024x4096 .f32) (p : Fin 1024) (j : Fin 1696) :
    View.ld X rT (ix2 p j) = X (ix2 p ⟨j.val, Nat.lt_of_lt_of_le j.isLt (by decide)⟩) := by
  show X (rT.idx (ix2 p j)) = X _
  rw [rT_idx p j]

/-- The leading-rows load reads the buffer at the same coordinates. -/
theorem ld_rC_apply (X : Vec F S4096x64 .f32) (j : Fin 1696) (q : Fin 64) :
    View.ld X rC (ix2 j q) = X (ix2 ⟨j.val, Nat.lt_of_lt_of_le j.isLt (by decide)⟩ q) := by
  show X (rC.idx (ix2 j q)) = X _
  rw [rC_idx j q]

end Cert.KernelIdeal.Hand

end
-- ==== Proof.KI.Data.lean ====
/-
  The proof data of the one pipeline, the body at every point, and the run.

  The accumulator after point n is defined by recursion on n: 0 + T_0 · C_0 after the first point, the previous value plus
  T_n · C_n after a middle point, and the previous value plus the tail product after the last. Before the first point
  the region's invariant says nothing of the accumulator; before any later point it holds the accumulator at the value
  the point before left. The x window's buffer holds x throughout; the two streamed windows' buffers hold their blocks
  (stated on the transferred part only, for they may overhang); the result's buffer is left untouched until the last
  point, where the body fills it, and is written back once.
-/
import proofs.«124941_g52578989637756_cont_9to1c4b_755_2_alg».proof.Proof.KI.RunFirst
import proofs.«124941_g52578989637756_cont_9to1c4b_755_2_alg».proof.Proof.KI.RunMid
import proofs.«124941_g52578989637756_cont_9to1c4b_755_2_alg».proof.Proof.KI.RunLast
import proofs.«124941_g52578989637756_cont_9to1c4b_755_2_alg».proof.Proof.KI.Blocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator, point by point -/

/-- The accumulator after point n. -/
def accAt (c : Dev nD) : (n : ℕ) → n < cfg0.N → Vec F S1024x64 .f32
  | 0, hn => k0_pay2 (k0_pay1 (F := F)) (tbuf m c ⟨0, hn⟩) (cbuf m c ⟨0, hn⟩)
  | n + 1, hn =>
    if n + 1 < 24 then k0_pay2 (accAt c n (Nat.lt_of_succ_lt hn)) (tbuf m c ⟨n + 1, hn⟩) (cbuf m c ⟨n + 1, hn⟩)
    else k0_pay3 (accAt c n (Nat.lt_of_succ_lt hn)) (View.ld (tbuf m c ⟨n + 1, hn⟩) rT) (View.ld (cbuf m c ⟨n + 1, hn⟩) rC)

theorem accAt_first (c : Dev nD) (t : Fin cfg0.N) (h : t.val = 0) :
    accAt m c t.val t.isLt = k0_pay2 (k0_pay1 (F := F)) (tbuf m c t) (cbuf m c t) := by
  obtain ⟨n, hn⟩ := t
  cases n with
  | zero => rfl
  | succ n => exact absurd h (Nat.succ_ne_zero n)

theorem accAt_mid (c : Dev nD) (t : Fin cfg0.N) (h0 : t.val ≠ 0) (h : t.val < 24) :
    accAt m c t.val t.isLt
      = k0_pay2 (accAt m c (t.val - 1) (Nat.lt_of_le_of_lt (Nat.sub_le _ _) t.isLt)) (tbuf m c t) (cbuf m c t) := by
  obtain ⟨n, hn⟩ := t
  cases n with
  | zero => exact absurd rfl h0
  | succ n => exact (if_pos h).trans rfl

theorem accAt_last (c : Dev nD) (t : Fin cfg0.N) (h : t.val = 24) :
    accAt m c t.val t.isLt
      = k0_pay3 (accAt m c (t.val - 1) (Nat.lt_of_le_of_lt (Nat.sub_le _ _) t.isLt)) (View.ld (tbuf m c t) rT) (View.ld (cbuf m c t) rC) := by
  obtain ⟨n, hn⟩ := t
  cases n with
  | zero => exact absurd h (by intro h'; dsimp only at h'; omega)
  | succ n => exact (if_neg (by dsimp only at h; omega)).trans rfl

/-- What the body stores into the result's buffer (read at the last point only): the squared distance of x and the accumulator. -/
def outAt (c : Dev nD) (t : Fin cfg0.N) : Vec F S1024x1 .f32 := k0_pay4 (iblk m c 0 t) (accAt m c t.val t.isLt)

/-! ## The invariant and the proof data -/

/-- Before position n: nothing named before the first point; afterwards the accumulator at what the point before left. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => tbuf m c t
    | ⟨2, _⟩ => cbuf m c t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = tbuf m c t := by dsimp only [dats]
theorem after2 (c : Dev nD) (t : Fin cfg0.N) : (dats m 0 c).after 2 t = cbuf m c t := by dsimp only [dats]
theorem after3 (c : Dev nD) (t : Fin cfg0.N) : (dats m 0 c).after 3 t = outAt m c t := by dsimp only [dats]

/-! ## What the body finds in the input windows' buffers -/

theorem before0 (c : Dev nD) (t : Fin cfg0.N) (d) : (dats m 0 c).before 0 t d = iblk m c 0 t :=
  before0_0_of m (dats m 0 c) (A_eq m c 0) (after0 m c) t d

theorem before1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq m c 1]

theorem before2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq m c 2]

/-! ## What the obligation asks of each window's buffer after the body -/

theorem leaves0 (c : Dev nD) (t : Fin cfg0.N) :
    (dats m 0 c).leaves 0 t = owns (c : Thread nD τ) (ms0 t) fullShare (iblk m c 0 t) := by
  unfold Dat.leaves; rw [live0 t, after0]

theorem leaves1 (c : Dev nD) (t : Fin cfg0.N) :
    (dats m 0 c).leaves 1 t
      = iprop(∃ d, owns (c : Thread nD τ) (ms1 t) fullShare (win0_1.fill (grid0.coords t) d (win0_1.cut (grid0.coords t) (tbuf m c t)))) := by
  unfold Dat.leaves; rw [live1 t, after1]; rfl

theorem leaves2 (c : Dev nD) (t : Fin cfg0.N) :
    (dats m 0 c).leaves 2 t
      = iprop(∃ d, owns (c : Thread nD τ) (ms2 t) fullShare (win0_2.fill (grid0.coords t) d (win0_2.cut (grid0.coords t) (cbuf m c t)))) := by
  unfold Dat.leaves; rw [live2 t, after2]; rfl

theorem leaves3_idle (c : Dev nD) (t : Fin cfg0.N) (h : t.val < 24) :
    (dats m 0 c).leaves 3 t = iprop(∃ d, owns (c : Thread nD τ) (ms3 t) fullShare ((dats m 0 c).before 3 t d)) :=
  (dats m 0 c).leaves_idle 3 t (idle3 t h) (noFlush3 t h)

theorem leaves3_last (c : Dev nD) (t : Fin cfg0.N) (h : t.val = 24) :
    (dats m 0 c).leaves 3 t = owns (c : Thread nD τ) (ms3 t) fullShare (outAt m c t) := by
  unfold Dat.leaves; rw [live3 t h, after3]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, PhiS_castSucc m c t]
  have hN : t.val < 25 := lt_of_lt_of_eq t.isLt (show cfg0.N = 25 from N_0)
  by_cases hz : t.val = 0
  · -- the first point
    have hlt : t.val < 24 := by omega
    rw [leaves3_idle m c t hlt, PhiS_zero m c _ _ hz, PhiA_eq, accAt_first m c t hz]
    iintro ⟨⟨HS, Hg⟩, Ho, ⟨%d0, H0⟩, ⟨%d1, H1⟩, ⟨%d2, H2⟩, ⟨%d3, H3⟩⟩
    rw [before0 m c t d0, before1 m c t d1, before2 m c t d2, tfill_full m c t hlt d1, cfill_full m c t hlt d2]
    iapply (runFirst (F := F) c (grid0.coords t) (ms0 t) (hs0 t) (ms1 t) (hs1 t) (ms2 t) (hs2 t) (ms3 t) (hs3 t) accM (Memref.isWhole_whole _) ((hcondZero t).mpr hz) ((hcondFull t).mpr hlt) (fun h => by have := (hcondLast t).mp h; omega) (iblk m c 0 t) (tbuf m c t) (cbuf m c t) ((dats m 0 c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]
    · iexists (tbuf m c t); rw [Pipeline.Window.fill_cut]; iexact H1
    isplitl [H2]
    · iexists (cbuf m c t); rw [Pipeline.Window.fill_cut]; iexact H2
    iexists d3; iexact H3
  · by_cases hlt : t.val < 24
    · -- a middle point
      rw [leaves3_idle m c t hlt, PhiS_pos m c _ _ hz, accAt_mid m c t hz hlt]
      iintro ⟨⟨HS, Hg⟩, Ho, ⟨%d0, H0⟩, ⟨%d1, H1⟩, ⟨%d2, H2⟩, ⟨%d3, H3⟩⟩
      rw [before0 m c t d0, before1 m c t d1, before2 m c t d2, tfill_full m c t hlt d1, cfill_full m c t hlt d2]
      iapply (runMid (F := F) c (grid0.coords t) (ms0 t) (hs0 t) (ms1 t) (hs1 t) (ms2 t) (hs2 t) (ms3 t) (hs3 t) accM (Memref.isWhole_whole _) (fun h => hz ((hcondZero t).mp h)) ((hcondFull t).mpr hlt) (fun h => by have := (hcondLast t).mp h; omega) (iblk m c 0 t) (tbuf m c t) (cbuf m c t) ((dats m 0 c).before 3 t d3) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]
      · iexists (tbuf m c t); rw [Pipeline.Window.fill_cut]; iexact H1
      isplitl [H2]
      · iexists (cbuf m c t); rw [Pipeline.Window.fill_cut]; iexact H2
      iexists d3; iexact H3
    · -- the last point
      have h24 : t.val = 24 := by omega
      rw [leaves3_last m c t h24, PhiS_pos m c _ _ hz]
      unfold outAt
      rw [accAt_last m c t h24]
      iintro ⟨⟨HS, Hg⟩, Ho, ⟨%d0, H0⟩, ⟨%d1, H1⟩, ⟨%d2, H2⟩, ⟨%d3, H3⟩⟩
      rw [before0 m c t d0, before1 m c t d1, before2 m c t d2]
      rw [← tfill_tail m c t h24 d1, ← cfill_tail m c t h24 d2]
      iapply (runLast (F := F) c (grid0.coords t) (ms0 t) (hs0 t) (ms1 t) (hs1 t) (ms2 t) (hs2 t) (ms3 t) (hs3 t) accM (Memref.isWhole_whole _) (fun h => hz ((hcondZero t).mp h)) (fun h => hlt ((hcondFull t).mp h)) ((hcondLast t).mpr h24) (iblk m c 0 t) (win0_1.fill (grid0.coords t) d1 (iblk m c 1 t)) (win0_2.fill (grid0.coords t) d2 (iblk m c 2 t)) ((dats m 0 c).before 3 t d3) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]
      · iexists d1; unfold tbuf; rw [Pipeline.Window.cut_fill]; iexact H1
      isplitl [H2]
      · iexists d2; unfold cbuf; rw [Pipeline.Window.cut_fill]; iexact H2
      iexact H3

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega), PhiA_eq]
  iintro ⟨HS, Hg⟩
  isplitl [HS]
  · iexists _; iexact HS
  iexact Hg

set_option backward.isDefEq.respectTransparency.types false in
/-- Every weakly fair execution of the program terminates, faulting nowhere, with every array of the pipeline at what the
    proof data compute and every other buffer as it was. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The frame: the program runs to the end and its three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.Spec.lean ====
/-
  The mathematics the two programs share, over the extended reals.

  loss p = ∑ e < 64, (x (p, e) − a (p, e))²  with  a (p, e) = ∑ k < 100000, T (p, k) · C (k, e).

  The kernel forms a (p, e) in 25 steps along k, the first 24 of width 4096 and a last one of width 1696
  (24 · 4096 + 1696 = 100000); the reference forms it in one sum. Addition of extended reals is commutative and
  associative, so a sum over an initial segment of the naturals splits at any point: no finiteness is needed.
-/
import Mathlib.Data.EReal.Basic
import Mathlib.Data.EReal.Operations
import Mathlib.Algebra.BigOperators.Intervals
import Mathlib.Algebra.BigOperators.Fin

namespace Cert.LossSpec

open Finset

/-- The squared distance of two 64-vectors. -/
noncomputable def sqdist (u v : Fin 64 → EReal) : EReal := ∑ e : Fin 64, (u e - v e) * (u e - v e)

/-- Term k of the class-axis sum, as a function on all naturals (zero past the end). -/
noncomputable def term (l r : Fin 100000 → EReal) (k : ℕ) : EReal := if h : k < 100000 then l ⟨k, h⟩ * r ⟨k, h⟩ else 0

theorem term_of_lt (l r : Fin 100000 → EReal) {k : ℕ} (h : k < 100000) : term l r k = l ⟨k, h⟩ * r ⟨k, h⟩ := dif_pos h

/-- The whole sum over the class axis is the sum of the terms below 100000. -/
theorem sum_all (l r : Fin 100000 → EReal) : ∑ k : Fin 100000, l k * r k = ∑ k ∈ range 100000, term l r k := by
  rw [Finset.sum_range]
  exact Finset.sum_congr rfl fun k _ => (term_of_lt l r k.isLt).symm

/-- One more block of width w: the sum below n + w is the sum below n plus the block's. -/
theorem sum_block (f : ℕ → EReal) (n w : ℕ) : ∑ k ∈ range (n + w), f k = ∑ k ∈ range n, f k + ∑ j : Fin w, f (n + j.val) := by
  rw [Finset.sum_range_add]; congr 1; exact Finset.sum_range fun x => f (n + x)

end Cert.LossSpec
-- ==== Proof.KI.PayIdeal.lean ====
/-
  The body's four stored values, at an entry, over the extended reals.

  Over the extended reals a change of float format is the identity, the zero word is 0, the matrix unit's product into a
  zero accumulator is the exact sum over the contracted axis, and the lane reduction is the exact sum over the lanes.
-/
import proofs.«124941_g52578989637756_cont_9to1c4b_755_2_alg».proof.Proof.Gen.KernelIdeal.Skeleton
import proofs.«124941_g52578989637756_cont_9to1c4b_755_2_alg».proof.Proof.LibPlainDot
import proofs.«124941_g52578989637756_cont_9to1c4b_755_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-- The full block's dimension numbers are those of a plain matrix product. -/
private theorem plain_full : Cert.PlainDot.Plain dot_S1024x4096_S4096x64_S1024x64_1_0_0_1_n_n :=
  ⟨rfl, rfl, rfl, rfl, rfl, rfl⟩

/-- The tail block's dimension numbers are those of a plain matrix product. -/
private theorem plain_tail : Cert.PlainDot.Plain dot_S1024x1696_S1696x64_S1024x64_1_0_0_1_n_n :=
  ⟨rfl, rfl, rfl, rfl, rfl, rfl⟩

/-- A vector cast to a one-column matrix reads, at (i, u), the vector at i: the row-major position of (i, u) in an
    [a, 1] array is i · 1 + u with u = 0. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the lanes of a [1024, 64] array, at row p, is the sum over e < 64 of the entries (p, e): the source
    index over row p with lane e inserted is (p, e). -/
private theorem laneSum_apply (v : FVec Ideal S1024x64 .f32) (h : S1024x64.Reduces [1] S1024) (hφ : FKind.Formats .f32)
    (hacc : (0x00000000#32 : BitVec 32) = 0x00000000#32) (p : Fin 1024) :
    multiReduction (F := Ideal) .add [1] S1024 v 0x00000000#32 h hφ hacc (ix1 p) = ∑ e : Fin 64, v (ix2 p e) := by
  refine (Ideal.multiReduction_add_single v 0x00000000#32 h hφ hacc (ix1 p)).trans ?_
  refine Finset.sum_congr rfl fun e _ => congrArg v ?_
  funext c
  match c with
  | ⟨0, _⟩ => rfl
  | ⟨1, _⟩ => rfl

/-- The zero fill. -/
theorem pay1_apply (p : Fin 1024) (q : Fin 64) : k0_pay1 (F := Ideal) (ix2 p q) = 0 := by
  unfold k0_pay1
  refine (congrFun (shapeCast_self _ _) (ix2 p q)).trans ?_
  exact Ideal.ofBits_zero_f32

/-- A full step: the accumulator plus the block's product, entry by entry. -/
theorem pay2_apply (a : FVec Ideal S1024x64 .f32) (T : FVec Ideal S1024x4096 .f32) (C : FVec Ideal S4096x64 .f32) (p : Fin 1024) (q : Fin 64) :
    k0_pay2 (F := Ideal) a T C (ix2 p q) = a (ix2 p q) + ∑ j : Fin 4096, T (ix2 p j) * C (ix2 j q) := by
  unfold k0_pay2
  refine (congrFun (shapeCast_self _ _) (ix2 p q)).trans ?_
  refine (addf_apply _ _ _).trans ?_
  exact congrArg (fun w => a (ix2 p q) + w) (Cert.PlainDot.matmul_zero_apply plain_full rfl rfl none T C p q)

/-- The tail step, of width 1696. -/
theorem pay3_apply (a : FVec Ideal S1024x64 .f32) (T : FVec Ideal S1024x1696 .f32) (C : FVec Ideal S1696x64 .f32) (p : Fin 1024) (q : Fin 64) :
    k0_pay3 (F := Ideal) a T C (ix2 p q) = a (ix2 p q) + ∑ j : Fin 1696, T (ix2 p j) * C (ix2 j q) := by
  unfold k0_pay3
  refine (congrFun (shapeCast_self _ _) (ix2 p q)).trans ?_
  refine (addf_apply _ _ _).trans ?_
  exact congrArg (fun w => a (ix2 p q) + w) (Cert.PlainDot.matmul_zero_apply plain_tail rfl rfl none T C p q)

/-- The result: row p's squared distance between x and the accumulator. -/
theorem pay4_apply (x a : FVec Ideal S1024x64 .f32) (p : Fin 1024) (z : Fin 1) :
    k0_pay4 (F := Ideal) x a (ix2 p z) = Cert.LossSpec.sqdist (fun e => x (ix2 p e)) (fun e => a (ix2 p e)) := by
  unfold k0_pay4
  refine (shapeCast_a_a1_apply _ _ p z).trans ?_
  refine (laneSum_apply _ _ _ _ p).trans ?_
  rfl

end Cert.KernelIdeal.Hand

end
-- ==== Proof.KI.Value.lean ====
/-
  The value of the kernel's result over the extended reals.

  Write s_n (p, q) for the sum of the terms targets (p, k) · centers (k, q) over k < 4096 · (n + 1). After the first point
  the accumulator is 0 + (block 0's product) = s_0; after a middle point n it is s_(n−1) + (block n's product) = s_n, the
  block's columns being k = 4096 n … 4096 n + 4095; after the last point it is s_23 + (the 1696 tail terms), the whole sum
  over k < 100000. Only commutativity and associativity of the sum are used. The result's buffer then holds, in row p, the
  squared distance of x (p, ·) and that whole sum, and its one write-back covers the result array.
-/
import proofs.«124941_g52578989637756_cont_9to1c4b_755_2_alg».proof.Proof.KI.Data
import proofs.«124941_g52578989637756_cont_9to1c4b_755_2_alg».proof.Proof.KI.PayIdeal
import proofs.«124941_g52578989637756_cont_9to1c4b_755_2_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LossSpec Finset

variable (m : (ℓ : Loc nD τ sig) → Buf (Elt Ideal) ℓ)

/-- Term k of entry (p, q)'s sum over the class axis. -/
abbrev tm (c : Dev nD) (p : Fin 1024) (q : Fin 64) : ℕ → EReal :=
  term (fun k => (tArr m c (ix2 p k) : EReal)) (fun k => (cArr m c (ix2 k q) : EReal))

/-- A full block's product at (p, q) is the terms k = 4096 t … 4096 t + 4095. -/
theorem step_full (c : Dev nD) (t : Fin cfg0.N) (ht : t.val < 24) (p : Fin 1024) (q : Fin 64) :
    ∑ j : Fin 4096, tbuf m c t (ix2 p j) * cbuf m c t (ix2 j q) = ∑ j : Fin 4096, tm m c p q (t.val * 4096 + j.val) := by
  refine Finset.sum_congr rfl fun j _ => ?_
  have h : t.val * 4096 + j.val < 100000 := by have := j.isLt; omega
  rw [tbuf_apply m c t p j h, cbuf_apply m c t j q h]
  exact (term_of_lt (fun k => (tArr m c (ix2 p k) : EReal)) (fun k => (cArr m c (ix2 k q) : EReal)) h).symm

/-- The tail's product at (p, q) is the terms k = 98304 … 99999. -/
theorem step_tail (c : Dev nD) (t : Fin cfg0.N) (ht : t.val = 24) (p : Fin 1024) (q : Fin 64) :
    ∑ j : Fin 1696, View.ld (tbuf m c t) rT (ix2 p j) * View.ld (cbuf m c t) rC (ix2 j q)
      = ∑ j : Fin 1696, tm m c p q (98304 + j.val) := by
  refine Finset.sum_congr rfl fun j _ => ?_
  have hj : j.val < 4096 := Nat.lt_of_lt_of_le j.isLt (by decide)
  have h : t.val * 4096 + (⟨j.val, hj⟩ : Fin 4096).val < 100000 := by have := j.isLt; dsimp only; omega
  rw [ld_rT_apply, ld_rC_apply, tbuf_apply m c t p ⟨j.val, hj⟩ h, cbuf_apply m c t ⟨j.val, hj⟩ q h]
  have h' : 98304 + j.val < 100000 := by have := j.isLt; omega
  have e : (⟨t.val * 4096 + (⟨j.val, hj⟩ : Fin 4096).val, h⟩ : Fin 100000) = ⟨98304 + j.val, h'⟩ := Fin.ext (by dsimp only; omega)
  rw [e]
  exact (term_of_lt (fun k => (tArr m c (ix2 p k) : EReal)) (fun k => (cArr m c (ix2 k q) : EReal)) h').symm

/-- After a point n < 24 the accumulator is the sum of the terms below 4096 (n + 1). -/
theorem acc_partial (c : Dev nD) : ∀ (n : ℕ) (hn : n < cfg0.N), n < 24 → ∀ (p : Fin 1024) (q : Fin 64),
    accAt m c n hn (ix2 p q) = ∑ k ∈ range ((n + 1) * 4096), tm m c p q k
  | 0, hn, _, p, q => by
    rw [accAt_first m c ⟨0, hn⟩ rfl, pay2_apply, pay1_apply, zero_add, step_full m c ⟨0, hn⟩ (show (0 : ℕ) < 24 by decide) p q,
      show (0 + 1) * 4096 = 0 + 4096 from rfl, sum_block, Finset.range_zero, Finset.sum_empty, zero_add]
    exact Finset.sum_congr rfl fun j _ => by simp
  | n + 1, hn, h, p, q => by
    rw [accAt_mid m c ⟨n + 1, hn⟩ (Nat.succ_ne_zero n) h, pay2_apply]
    have ih := acc_partial c n (Nat.lt_of_succ_lt hn) (by omega) p q
    simp only [Nat.add_sub_cancel] at ih ⊢
    rw [ih, step_full m c ⟨n + 1, hn⟩ h p q, show (n + 1 + 1) * 4096 = (n + 1) * 4096 + 4096 by ring, sum_block]

/-- After the last point the accumulator is the whole sum over the class axis. -/
theorem acc_whole (c : Dev nD) (t : Fin cfg0.N) (ht : t.val = 24) (p : Fin 1024) (q : Fin 64) :
    accAt m c t.val t.isLt (ix2 p q) = ∑ k : Fin 100000, tArr m c (ix2 p k) * cArr m c (ix2 k q) := by
  rw [accAt_last m c t ht, pay3_apply, step_tail m c t ht p q,
    acc_partial m c (t.val - 1) (Nat.lt_of_le_of_lt (Nat.sub_le _ _) t.isLt) (by omega) p q,
    show (t.val - 1 + 1) * 4096 = 98304 by omega, ← sum_block, sum_all]

/-- The result as one function of the argument arrays: row p's squared distance. -/
def lossArr (c : Dev nD) : Vec Ideal S1024x1 .f32 := fun i =>
  sqdist (fun e => xArr m c (ix2 (i 0) e)) (fun e => ∑ k : Fin 100000, tArr m c (ix2 (i 0) k) * cArr m c (ix2 k e))

/-- What the body stores at the last point is that function, entry by entry, -/
theorem outAt_last_apply (c : Dev nD) (t : Fin cfg0.N) (ht : t.val = 24) (p : Fin 1024) (z : Fin 1) :
    outAt m c t (ix2 p z) = lossArr m c (ix2 p z) := by
  unfold outAt
  rw [pay4_apply]
  show sqdist _ _ = sqdist _ _
  exact congrArg₂ sqdist (funext fun e => xblk_apply m c t p e) (funext fun e => acc_whole m c t ht p e)

/-- and so as a whole. -/
theorem outAt_last (c : Dev nD) (t : Fin cfg0.N) (ht : t.val = 24) : outAt m c t = lossArr m c :=
  funext fun i =>
    (congrArg (fun j => outAt m c t j = lossArr m c j) (eq_ix2 i)).mpr (outAt_last_apply m c t ht (i 0) (i 1))

/-! ## The result array after the run -/

/-- The result's window: block index (0, 0) at every point, never cut. -/
private theorem ofacts : ∀ t : Fin cfg0.N,
    win0_3.index t (0 : Fin 2) = 0 ∧ win0_3.index t (1 : Fin 2) = 0
    ∧ win0_3.xsize (grid0.coords t) (0 : Fin 2) = 1024 ∧ win0_3.xsize (grid0.coords t) (1 : Fin 2) = 1 :=
  (by decide +kernel : ∀ t : Fin grid0.N, _)

/-- The last point, which alone writes the result back. -/
abbrev tLast : Fin cfg0.N := ⟨24, by decide⟩

theorem flush_tLast : (cfg0.win 3).flush tLast = true := by decide +kernel

/-- The one write-back, at the last point, writes the whole result array: it ends at the loss, row by row. -/
theorem final3 (c : Dev nD) : (dats m 0 c).arrAt 3 cfg0.N = lossArr m c := by
  refine (dats m 0 c).arrAt_eq_of_cover 3 (lossArr m c) (fun t hf => ?_) (fun i => ⟨tLast, flush_tLast, ?_⟩)
  · have hN : t.val < 25 := lt_of_lt_of_eq t.isLt (show cfg0.N = 25 from N_0)
    have ht : t.val = 24 := by have := (flush0_3 t).mp hf; omega
    obtain ⟨i0, i1, x0, x1⟩ := ofacts t
    funext j
    show (dats m 0 c).after 3 t ((cfg0.win 3).xinj (grid0.coords t) j) = ((cfg0.win 3).blk t).view.read (Elt Ideal) (lossArr m c) j
    rw [after3, outAt_last m c t ht, View.read_apply]
    show lossArr m c _ = lossArr m c (((cfg0.win 3).blk t).view.emb _)
    congr 1
    funext a; apply Fin.ext
    match a with
    | ⟨0, _⟩ => show (j 0).val = win0_3.index t (0 : Fin 2) * 1024 + 1 * (j 0).val; rw [i0]; omega
    | ⟨1, _⟩ => show (j 1).val = win0_3.index t (1 : Fin 2) * 1 + 1 * (j 1).val; rw [i1]; omega
  · obtain ⟨i0, i1, x0, x1⟩ := ofacts tLast
    show i ∈ ((View.whole main_v0).slice (win0_3.rect tLast)).set
    rw [View.set_slice_whole, Rect.mem_set_unit]
    intro a
    match a with
    | ⟨0, _⟩ =>
      show win0_3.index tLast (0 : Fin 2) * 1024 ≤ (i 0).val ∧ (i 0).val < win0_3.index tLast (0 : Fin 2) * 1024 + win0_3.xsize (grid0.coords tLast) (0 : Fin 2)
      rw [i0, x0]; have : (i 0).val < 1024 := (i 0).isLt; omega
    | ⟨1, _⟩ =>
      show win0_3.index tLast (1 : Fin 2) * 1 ≤ (i 1).val ∧ (i 1).val < win0_3.index tLast (1 : Fin 2) * 1 + win0_3.xsize (grid0.coords tLast) (1 : Fin 2)
      rw [i1, x1]; have : (i 1).val < 1 := (i 1).isLt; omega

end Cert.KernelIdeal.Hand

end
-- ==== Proof.RefIdeal.lean ====
/-
  The reference's result at an entry, over the extended reals: row p's squared distance between x and the one product
  of targets and centers over the whole class axis.
-/
import proofs.«124941_g52578989637756_cont_9to1c4b_755_2_alg».proof.Proof.Gen.ReferenceIdeal.Read
import proofs.«124941_g52578989637756_cont_9to1c4b_755_2_alg».proof.Proof.Spec
import Idealize.ShloMosaic.Lib.ValueIdx
import Idealize.ShloMosaic.PureOps.Ideal.Laws

noncomputable section

namespace Cert.ReferenceIdeal.RefSpec

open Cert.ReferenceIdeal Cert.ReferenceIdeal.Gen Idealize.ShloMosaic Idealize.ShloMosaic.ValueIdx

theorem ref_apply (x0 : FVec Ideal S1024x64 .f32) (x1 : FVec Ideal S1024x100000 .f32) (x2 : FVec Ideal S100000x64 .f32) (p : Fin 1024) (z : Fin 1) :
    Cert.ReferenceIdeal.Read.val_main_v18 (F := Ideal) x0 x1 x2 (ix2 p z)
      = Cert.LossSpec.sqdist (fun e => x0 (ix2 p e)) (fun e => ∑ k : Fin 100000, x1 (ix2 p k) * x2 (ix2 k e)) := by
  -- the reduction's operand index at lane e of row p, and the contraction's two operand indices at class k
  have e17 : ∀ e : Fin 64, Read.idx_main_v17 (Read.idx_main_v18 (ix2 p z)) e = ix2 p e := fun e =>
    funext fun a => Fin.ext (by match a with | ⟨0, _⟩ => rfl | ⟨1, _⟩ => rfl)
  have el : ∀ (e : Fin 64) (k : Fin 100000), Read.lidx_main_v14 (ix2 p e) k = ix2 p k := fun e k =>
    funext fun a => Fin.ext (by match a with | ⟨0, _⟩ => rfl | ⟨1, _⟩ => rfl)
  have er : ∀ (e : Fin 64) (k : Fin 100000), Read.ridx_main_v14 (ix2 p e) k = ix2 k e := fun e k =>
    funext fun a => Fin.ext (by match a with | ⟨0, _⟩ => rfl | ⟨1, _⟩ => rfl)
  -- the broadcast reads the row's sum; the sum starts from the zero constant
  rw [Read.val_main_v18_apply, Read.val_main_v17_apply, Read.val_main_cst_2_apply]
  -- under the sum over lanes: the square of the difference, the difference, the product over the class axis
  simp only [e17, Read.val_main_v16_apply, Read.val_main_v15_apply, Read.val_main_v14_apply, el, er,
    Ideal.ofBits_def, Ideal.ofBits_zero_f32, Ideal.mulf_def, Ideal.subf_def, zero_add]
  rfl

end Cert.ReferenceIdeal.RefSpec

end
-- ==== Proof.lean ====
/- The kernel computes, for each of 1024 rows p, the squared distance
     loss p = ∑ e < 64, (x (p, e) − ∑ k < 100000, targets (p, k) · centers (k, e))²
   by streaming the class axis k in 25 steps (24 blocks of width 4096 and a tail of width 1696) into an accumulator, and the
   reference computes the same with one product over the whole axis. Over the extended reals the two are one function of
   the inputs: a sum over an initial segment of the naturals splits at any point, by commutativity and associativity alone,
   so no finiteness of the inputs is used.

   The frames: each program runs to the end, faults nowhere and leaves its three inputs as they were. For the kernel (read at
   the word level and over the extended reals alike) this is the pipeline's run with the body proved point by point, the
   accumulator followed through the 25 points; for the reference it is its run with the result dropped. The idealization
   rewrote no operation, so there is nothing to preserve. -/
import proofs.«124941_g52578989637756_cont_9to1c4b_755_2_alg».proof.Defs
import proofs.«124941_g52578989637756_cont_9to1c4b_755_2_alg».proof.Proof.Gen.Kernel
import proofs.«124941_g52578989637756_cont_9to1c4b_755_2_alg».proof.Proof.Gen.KernelIdeal
import proofs.«124941_g52578989637756_cont_9to1c4b_755_2_alg».proof.Proof.Gen.ReferenceIdeal
import proofs.«124941_g52578989637756_cont_9to1c4b_755_2_alg».proof.Proof.Gen.Pre_finite_inputs
import proofs.«124941_g52578989637756_cont_9to1c4b_755_2_alg».proof.Proof.Gen.ReferenceIdeal.Run
import proofs.«124941_g52578989637756_cont_9to1c4b_755_2_alg».proof.Proof.Gen.ReferenceIdeal.Read
import proofs.«124941_g52578989637756_cont_9to1c4b_755_2_alg».proof.Proof.K.Data
import proofs.«124941_g52578989637756_cont_9to1c4b_755_2_alg».proof.Proof.KI.Data
import proofs.«124941_g52578989637756_cont_9to1c4b_755_2_alg».proof.Proof.KI.Value
import proofs.«124941_g52578989637756_cont_9to1c4b_755_2_alg».proof.Proof.RefIdeal
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at the loss of their (agreeing) inputs, row by row. -/
theorem algebraic : Cert.algebraic_KernelIdeal_ReferenceIdeal := by
  intro m ρ m' ρ' _ hagree
  refine ⟨fun c => Cert.KernelIdeal.Hand.lossArr m c, ?_, ?_⟩
  · -- the kernel: the result array after its one write-back, and the inputs, which no write-back touches
    refine (θ_run Cert.KernelIdeal.defs _ _).mono (fun r h c => ?_) (Cert.KernelIdeal.Hand.run_main (F := Ideal) m ρ)
    exact ⟨((h c).1 3).trans (Cert.KernelIdeal.Hand.final3 m c),
      ((h c).1 0).trans (((Cert.KernelIdeal.Hand.dats m 0 c).arrAt_in 0 rfl _).trans ((Cert.KernelIdeal.Hand.A_eq m c 0).trans (Cert.KernelIdeal.Gen.V_main_arg0 m c))),
      ((h c).1 1).trans (((Cert.KernelIdeal.Hand.dats m 0 c).arrAt_in 1 rfl _).trans ((Cert.KernelIdeal.Hand.A_eq m c 1).trans (Cert.KernelIdeal.Gen.V_main_arg1 m c))),
      ((h c).1 2).trans (((Cert.KernelIdeal.Hand.dats m 0 c).arrAt_in 2 rfl _).trans ((Cert.KernelIdeal.Hand.A_eq m c 2).trans (Cert.KernelIdeal.Gen.V_main_arg2 m c)))⟩
  · -- the reference: its run's term, read row by row
    refine (θ_run Cert.ReferenceIdeal.defs _ _).mono (fun r h c => ⟨(h c).1.trans ?_, (h c).2⟩)
      (Cert.ReferenceIdeal.Value.run (F := Ideal) m' ρ')
    rw [Cert.ReferenceIdeal.Read.val_main_v18_eq, (hagree c).1, (hagree c).2.1, (hagree c).2.2]
    funext i
    exact (congrArg (fun j => Cert.ReferenceIdeal.Read.val_main_v18 (F := Ideal) _ _ _ j = Cert.KernelIdeal.Hand.lossArr m c j) (eq_ix2 i)).mpr
      (Cert.ReferenceIdeal.RefSpec.ref_apply _ _ _ (i 0) (i 1))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
